-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x300x512 : Shape := ⟨3, ![4, 300, 512]⟩
abbrev S4x101x512 : Shape := ⟨3, ![4, 101, 512]⟩
abbrev S640x1024 : Shape := ⟨2, ![640, 1024]⟩
abbrev S640 : Shape := ⟨1, ![640]⟩
abbrev S_ : Shape := ⟨0, ![]⟩

class Facts : Prop where
  bcast_S_S4x300x512 : S_.BroadcastsInDim S4x300x512 (![] : Fin 0 → Fin S4x300x512.rank)
  reducesTo_S4x300x512_S_d0_1_2 : S4x300x512.ReducesTo [0, 1, 2] S_
  h_S_ : 0 < S_.numel
  bcast_S_S4x101x512 : S_.BroadcastsInDim S4x101x512 (![] : Fin 0 → Fin S4x101x512.rank)
  reducesTo_S4x101x512_S_d0_1_2 : S4x101x512.ReducesTo [0, 1, 2] S_
  bcast_S_S640x1024 : S_.BroadcastsInDim S640x1024 (![] : Fin 0 → Fin S640x1024.rank)
  reducesTo_S640x1024_S_d0_1 : S640x1024.ReducesTo [0, 1] S_
  bcast_S_S640 : S_.BroadcastsInDim S640 (![] : Fin 0 → Fin S640.rank)
  reducesTo_S640_S_d0 : S640.ReducesTo [0] S_

variable [Facts]

def fn_part1 {F : FTy → Type} [FloatOps F] (main_v13 : IVec S_ 1) (main_v16 : IVec S640 1) : IVec S_ 1 :=
  let main_c_5 : IVec S_ 1 := constantI S_ 1 1#1
  let main_v17 : IVec S_ 1 := (fun x v => Host.reduce IntOp.andi x v reducesTo_S640_S_d0 h_S_) main_v16 main_c_5
  let main_v18 : IVec S_ 1 := andi main_v13 main_v17
  main_v18

def fn {F : FTy → Type} [FloatOps F] (main_arg0 : FVec F S4x300x512 .f32) (main_arg1 : FVec F S4x101x512 .f32) (main_arg2 : FVec F S640x1024 .f32) (main_arg3 : FVec F S640 .f32) : IVec S_ 1 :=
  let main_v0 : FVec F S4x300x512 .f32 := Host.absf main_arg0
  let main_cst : FVec F S_ .f32 := constant S_ .f32 0x7F800000#32
  let main_v1 : FVec F S4x300x512 .f32 := broadcastInDim S4x300x512 ![] bcast_S_S4x300x512 main_cst
  let main_v2 : IVec S4x300x512 1 := cmpf .olt main_v0 main_v1
  let main_c : IVec S_ 1 := constantI S_ 1 1#1
  let main_v3 : IVec S_ 1 := (fun x v => Host.reduce IntOp.andi x v reducesTo_S4x300x512_S_d0_1_2 h_S_) main_v2 main_c
  let main_v4 : FVec F S4x101x512 .f32 := Host.absf main_arg1
  let main_cst_0 : FVec F S_ .f32 := constant S_ .f32 0x7F800000#32
  let main_v5 : FVec F S4x101x512 .f32 := broadcastInDim S4x101x512 ![] bcast_S_S4x101x512 main_cst_0
  let main_v6 : IVec S4x101x512 1 := cmpf .olt main_v4 main_v5
  let main_c_1 : IVec S_ 1 := constantI S_ 1 1#1
  let main_v7 : IVec S_ 1 := (fun x v => Host.reduce IntOp.andi x v reducesTo_S4x101x512_S_d0_1_2 h_S_) main_v6 main_c_1
  let main_v8 : IVec S_ 1 := andi main_v3 main_v7
  let main_v9 : FVec F S640x1024 .f32 := Host.absf main_arg2
  let main_cst_2 : FVec F S_ .f32 := constant S_ .f32 0x7F800000#32
  let main_v10 : FVec F S640x1024 .f32 := broadcastInDim S640x1024 ![] bcast_S_S640x1024 main_cst_2
  let main_v11 : IVec S640x1024 1 := cmpf .olt main_v9 main_v10
  let main_c_3 : IVec S_ 1 := constantI S_ 1 1#1
  let main_v12 : IVec S_ 1 := (fun x v => Host.reduce IntOp.andi x v reducesTo_S640x1024_S_d0_1 h_S_) main_v11 main_c_3
  let main_v13 : IVec S_ 1 := andi main_v8 main_v12
  let main_v14 : FVec F S640 .f32 := Host.absf main_arg3
  let main_cst_4 : FVec F S_ .f32 := constant S_ .f32 0x7F800000#32
  let main_v15 : FVec F S640 .f32 := broadcastInDim S640 ![] bcast_S_S640 main_cst_4
  let main_v16 : IVec S640 1 := cmpf .olt main_v14 main_v15
  fn_part1 (F := F) main_v13 main_v16
-- ==== Kernel.lean ====
abbrev S4x300x512 : Shape := ⟨3, ![4, 300, 512]⟩
abbrev S4x101x512 : Shape := ⟨3, ![4, 101, 512]⟩
abbrev S640x1024 : Shape := ⟨2, ![640, 1024]⟩
abbrev S640 : Shape := ⟨1, ![640]⟩
abbrev S640x512 : Shape := ⟨2, ![640, 512]⟩
abbrev S512x640 : Shape := ⟨2, ![512, 640]⟩
abbrev S1x640 : Shape := ⟨2, ![1, 640]⟩
abbrev S4x300x101x640 : Shape := ⟨4, ![4, 300, 101, 640]⟩
abbrev S1x104x512 : Shape := ⟨3, ![1, 104, 512]⟩
abbrev S1x101x512 : Shape := ⟨3, ![1, 101, 512]⟩
abbrev S1x104x101x640 : Shape := ⟨4, ![1, 104, 101, 640]⟩
abbrev S104x512 : Shape := ⟨2, ![104, 512]⟩
abbrev S104x640 : Shape := ⟨2, ![104, 640]⟩
abbrev S101x512 : Shape := ⟨2, ![101, 512]⟩
abbrev S101x640 : Shape := ⟨2, ![101, 640]⟩
abbrev S104x1x640 : Shape := ⟨3, ![104, 1, 640]⟩
abbrev S1x101x640 : Shape := ⟨3, ![1, 101, 640]⟩
abbrev S104x101x640 : Shape := ⟨3, ![104, 101, 640]⟩

abbrev nBuf : Space → Nat
  | .hbm => 10
  | .vmem => 8
  | .smem => 0
  | _ => 0

abbrev bufTy : (tb : Table) → Fin (tcTables nBuf tb) → BufTy
  | .hbm, ⟨0, _⟩ => ⟨S4x300x512, .f32⟩
  | .hbm, ⟨1, _⟩ => ⟨S4x101x512, .f32⟩
  | .hbm, ⟨2, _⟩ => ⟨S640x1024, .f32⟩
  | .hbm, ⟨3, _⟩ => ⟨S640, .f32⟩
  | .hbm, ⟨4, _⟩ => ⟨S640x512, .f32⟩
  | .hbm, ⟨5, _⟩ => ⟨S640x512, .f32⟩
  | .hbm, ⟨6, _⟩ => ⟨S512x640, .f32⟩
  | .hbm, ⟨7, _⟩ => ⟨S512x640, .f32⟩
  | .hbm, ⟨8, _⟩ => ⟨S1x640, .f32⟩
  | .hbm, ⟨9, _⟩ => ⟨S4x300x101x640, .f32⟩
  | .local _ .vmem, ⟨0, _⟩ => ⟨S1x104x512, .f32⟩
  | .local _ .vmem, ⟨1, _⟩ => ⟨S1x104x512, .f32⟩
  | .local _ .vmem, ⟨2, _⟩ => ⟨S1x101x512, .f32⟩
  | .local _ .vmem, ⟨3, _⟩ => ⟨S512x640, .f32⟩
  | .local _ .vmem, ⟨4, _⟩ => ⟨S512x640, .f32⟩
  | .local _ .vmem, ⟨5, _⟩ => ⟨S1x640, .f32⟩
  | .local _ .vmem, ⟨6, _⟩ => ⟨S1x104x101x640, .f32⟩
  | .local _ .vmem, ⟨7, _⟩ => ⟨S1x104x101x640, .f32⟩
  | _, _ => ⟨S4x300x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x104x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x101x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x104x101x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S640x1024_S640x512_0_0 : S640x1024.Slices ![0, 0] S640x512
  slices_S640x1024_S640x512_0_512 : S640x1024.Slices ![0, 512] S640x512
  transposes_S640x512_S512x640_1_0 : S640x512.Transposes [1, 0] S512x640
  shapeCasts_S640_S1x640 : S640.ShapeCasts S1x640
  iota_S104x512_d0_w32 : S104x512.Iotas .tc 32 [0]
  inb_S1x104x512_S1x104x512_0_0_0 : ∀ a, (![0, 0, 0] : Fin 3 → Nat) a + S1x104x512.size a ≤ S1x104x512.size a
  h_S1x104x512 : 0 < S1x104x512.numel
  shapeCasts_S1x104x512_S104x512 : S1x104x512.ShapeCasts S104x512
  inb_S512x640_S512x640_0_0 : ∀ a, (![0, 0] : Fin 2 → Nat) a + S512x640.size a ≤ S512x640.size a
  h_S512x640 : 0 < S512x640.numel
  shapeCasts_S512x640_S512x640 : S512x640.ShapeCasts S512x640
  inb_S1x101x512_S1x101x512_0_0_0 : ∀ a, (![0, 0, 0] : Fin 3 → Nat) a + S1x101x512.size a ≤ S1x101x512.size a
  h_S1x101x512 : 0 < S1x101x512.numel
  shapeCasts_S1x101x512_S101x512 : S1x101x512.ShapeCasts S101x512
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S101x640 : S1x640.Broadcasts S101x640
  shapeCasts_S104x640_S104x1x640 : S104x640.ShapeCasts S104x1x640
  shapeCasts_S101x640_S1x101x640 : S101x640.ShapeCasts S1x101x640
  broadcasts_S104x1x640_S104x101x640 : S104x1x640.Broadcasts S104x101x640
  broadcasts_S1x101x640_S104x101x640 : S1x101x640.Broadcasts S104x101x640
  inb_S1x104x101x640_S1x104x101x640_0_0_0_0 : ∀ a, (![0, 0, 0, 0] : Fin 4 → Nat) a + S1x104x101x640.size a ≤ S1x104x101x640.size a
  h_S1x104x101x640 : 0 < S1x104x101x640.numel
  shapeCasts_S1x104x101x640_S104x101x640 : S1x104x101x640.ShapeCasts S104x101x640
  shapeCasts_S104x101x640_S1x104x101x640 : S104x101x640.ShapeCasts S1x104x101x640
  dot_S104x512_S512x640_S104x640_1_0_0_1_n_n_wf : DotDims.WF S104x512 S512x640 S104x640 [1] [0] [0] [1] [] []
  dot_S101x512_S512x640_S101x640_1_0_0_1_n_n_wf : DotDims.WF S101x512 S512x640 S101x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x104x512.size a < S4x300x512.size a
  hwx0_0 : ∀ i : grid0.Coords, EltTy.bits .f32 = 32 ∨ (Rect.unit (s := S4x300x512) (fun a => cc0_transform_0 i a * S1x104x512.size a) (fun a => (Pipeline.Clip.of (cc0_transform_0 i a) (S1x104x512.size a) (S4x300x512.size a)).extent (S1x104x512.size a)) fun a => Pipeline.Clip.inb (Pipeline.Clip.ok_of (hstart0_0 i a))).WholeWords (EltTy.packing .f32)
  hwxs0_0 : ∀ i : grid0.Coords, EltTy.bits .f32 = 32 ∨ (Rect.unit (s := S1x104x512) (fun _ => 0) (fun a => (Pipeline.Clip.of (cc0_transform_0 i a) (S1x104x512.size a) (S4x300x512.size a)).extent (S1x104x512.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x101x512.size a ≤ S4x101x512.size a
  hwx0_1 : ∀ i : grid0.Coords, EltTy.bits .f32 = 32 ∨ (Rect.block (s := S4x101x512) S1x101x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x640.size a ≤ S512x640.size a
  hwx0_2 : ∀ i : grid0.Coords, EltTy.bits .f32 = 32 ∨ (Rect.block (s := S512x640) S512x640.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x640.size a ≤ S512x640.size a
  hwx0_3 : ∀ i : grid0.Coords, EltTy.bits .f32 = 32 ∨ (Rect.block (s := S512x640) S512x640.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x640.size a ≤ S1x640.size a
  hwx0_4 : ∀ i : grid0.Coords, EltTy.bits .f32 = 32 ∨ (Rect.block (s := S1x640) S1x640.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S1x104x101x640.size a < S4x300x101x640.size a
  hwx0_5 : ∀ i : grid0.Coords, EltTy.bits .f32 = 32 ∨ (Rect.unit (s := S4x300x101x640) (fun a => cc0_transform_5 i a * S1x104x101x640.size a) (fun a => (Pipeline.Clip.of (cc0_transform_5 i a) (S1x104x101x640.size a) (S4x300x101x640.size a)).extent (S1x104x101x640.size a)) fun a => Pipeline.Clip.inb (Pipeline.Clip.ok_of (hstart0_5 i a))).WholeWords (EltTy.packing .f32)
  hwxs0_5 : ∀ i : grid0.Coords, EltTy.bits .f32 = 32 ∨ (Rect.unit (s := S1x104x101x640) (fun _ => 0) (fun a => (Pipeline.Clip.of (cc0_transform_5 i a) (S1x104x101x640.size a) (S4x300x101x640.size a)).extent (S1x104x101x640.size a)) fun a => (Nat.zero_add _).trans_le (Pipeline.Clip.extent_le (Pipeline.Clip.ok_of (hstart0_5 i a)))).WholeWords (EltTy.packing .f32)

variable [Facts₀]

def dot_S104x512_S512x640_S104x640_1_0_0_1_n_n : DotDims S104x512 S512x640 S104x640 where
  lhsContracting := [1]
  rhsContracting := [0]
  lhsNonContracting := [0]
  rhsNonContracting := [1]
  lhsBatch := []
  rhsBatch := []
  wf := dot_S104x512_S512x640_S104x640_1_0_0_1_n_n_wf
def dot_S101x512_S512x640_S101x640_1_0_0_1_n_n : DotDims S101x512 S512x640 S101x640 where
  lhsContracting := [1]
  rhsContracting := [0]
  lhsNonContracting := [0]
  rhsNonContracting := [1]
  lhsBatch := []
  rhsBatch := []
  wf := dot_S101x512_S512x640_S101x640_1_0_0_1_n_n_wf

abbrev win0_0 : Pipeline.Window sig grid0 :=
  Pipeline.Window.ofSpecClip (Memref.whole main_arg0) S1x104x512.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S1x101x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x640.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x640.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v5) S1x104x101x640.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x300x512 : Shape := ⟨3, ![4, 300, 512]⟩
abbrev S4x101x512 : Shape := ⟨3, ![4, 101, 512]⟩
abbrev S640x1024 : Shape := ⟨2, ![640, 1024]⟩
abbrev S640 : Shape := ⟨1, ![640]⟩
abbrev S4x300x1x512 : Shape := ⟨4, ![4, 300, 1, 512]⟩
abbrev S4x300x101x512 : Shape := ⟨4, ![4, 300, 101, 512]⟩
abbrev S4x1x101x512 : Shape := ⟨4, ![4, 1, 101, 512]⟩
abbrev S4x300x101x1024 : Shape := ⟨4, ![4, 300, 101, 1024]⟩
abbrev S_ : Shape := ⟨0, ![]⟩
abbrev S4x300x101x640 : Shape := ⟨4, ![4, 300, 101, 640]⟩
abbrev S1x1x1x640 : Shape := ⟨4, ![1, 1, 1, 640]⟩

abbrev nBuf : Space → Nat
  | .hbm => 30
  | .vmem => 0
  | .smem => 0
  | _ => 0

abbrev bufTy : (tb : Table) → Fin (tcTables nBuf tb) → BufTy
  | .hbm, ⟨0, _⟩ => ⟨S4x300x512, .f32⟩
  | .hbm, ⟨1, _⟩ => ⟨S4x101x512, .f32⟩
  | .hbm, ⟨2, _⟩ => ⟨S640x1024, .f32⟩
  | .hbm, ⟨3, _⟩ => ⟨S640, .f32⟩
  | .hbm, ⟨4, _⟩ => ⟨S4x300x1x512, .f32⟩
  | .hbm, ⟨5, _⟩ => ⟨S4x300x101x512, .f32⟩
  | .hbm, ⟨6, _⟩ => ⟨S4x1x101x512, .f32⟩
  | .hbm, ⟨7, _⟩ => ⟨S4x300x101x512, .f32⟩
  | .hbm, ⟨8, _⟩ => ⟨S4x300x101x1024, .f32⟩
  | .hbm, ⟨9, _⟩ => ⟨S4x300x101x1024, .f32⟩
  | .hbm, ⟨10, _⟩ => ⟨S4x300x101x1024, .f32⟩
  | .hbm, ⟨11, _⟩ => ⟨S_, .f32⟩
  | .hbm, ⟨12, _⟩ => ⟨S4x300x101x1024, .f32⟩
  | .hbm, ⟨13, _⟩ => ⟨S4x300x101x1024, .f32⟩
  | .hbm, ⟨14, _⟩ => ⟨S4x300x101x1024, .f32⟩
  | .hbm, ⟨15, _⟩ => ⟨S_, .f32⟩
  | .hbm, ⟨16, _⟩ => ⟨S4x300x101x1024, .f32⟩
  | .hbm, ⟨17, _⟩ => ⟨S4x300x101x1024, .f32⟩
  | .hbm, ⟨18, _⟩ => ⟨S4x300x101x1024, .f32⟩
  | .hbm, ⟨19, _⟩ => ⟨S_, .f32⟩
  | .hbm, ⟨20, _⟩ => ⟨S4x300x101x1024, .f32⟩
  | .hbm, ⟨21, _⟩ => ⟨S4x300x101x1024, .f32⟩
  | .hbm, ⟨22, _⟩ => ⟨S_, .f32⟩
  | .hbm, ⟨23, _⟩ => ⟨S4x300x101x1024, .f32⟩
  | .hbm, ⟨24, _⟩ => ⟨S4x300x101x1024, .f32⟩
  | .hbm, ⟨25, _⟩ => ⟨S4x300x101x1024, .f32⟩
  | .hbm, ⟨26, _⟩ => ⟨S4x300x101x640, .f32⟩
  | .hbm, ⟨27, _⟩ => ⟨S1x1x1x640, .f32⟩
  | .hbm, ⟨28, _⟩ => ⟨S4x300x101x640, .f32⟩
  | .hbm, ⟨29, _⟩ => ⟨S4x300x101x640, .f32⟩
  | _, _ => ⟨S4x300x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  bcast_S4x300x512_S4x300x1x512_0_1_3 : S4x300x512.BroadcastsInDim S4x300x1x512 (![0, 1, 3] : Fin 3 → Fin S4x300x1x512.rank)
  bcast_S4x300x1x512_S4x300x101x512_0_1_2_3 : S4x300x1x512.BroadcastsInDim S4x300x101x512 (![0, 1, 2, 3] : Fin 4 → Fin S4x300x101x512.rank)
  bcast_S4x101x512_S4x1x101x512_0_2_3 : S4x101x512.BroadcastsInDim S4x1x101x512 (![0, 2, 3] : Fin 3 → Fin S4x1x101x512.rank)
  bcast_S4x1x101x512_S4x300x101x512_0_1_2_3 : S4x1x101x512.BroadcastsInDim S4x300x101x512 (![0, 1, 2, 3] : Fin 4 → Fin S4x300x101x512.rank)
  concatenates_S4x300x101x512_S4x300x101x512_S4x300x101x1024_d3 : Shape.Concatenates [S4x300x101x512, S4x300x101x512] S4x300x101x1024 3
  bcast_S_S4x300x101x1024 : S_.BroadcastsInDim S4x300x101x1024 (![] : Fin 0 → Fin S4x300x101x1024.rank)
  bcast_S640_S1x1x1x640_3 : S640.BroadcastsInDim S1x1x1x640 (![3] : Fin 1 → Fin S1x1x1x640.rank)
  bcast_S1x1x1x640_S4x300x101x640_0_1_2_3 : S1x1x1x640.BroadcastsInDim S4x300x101x640 (![0, 1, 2, 3] : Fin 4 → Fin S4x300x101x640.rank)
  dot_S4x300x101x1024_S640x1024_S4x300x101x640_3_1_012_0_n_n_wf : DotDims.WF S4x300x101x1024 S640x1024 S4x300x101x640 [3] [1] [0, 1, 2] [0] [] []

variable [Facts₀]

def dot_S4x300x101x1024_S640x1024_S4x300x101x640_3_1_012_0_n_n : DotDims S4x300x101x1024 S640x1024 S4x300x101x640 where
  lhsContracting := [3]
  rhsContracting := [1]
  lhsNonContracting := [0, 1, 2]
  rhsNonContracting := [0]
  lhsBatch := []
  rhsBatch := []
  wf := dot_S4x300x101x1024_S640x1024_S4x300x101x640_3_1_012_0_n_n_wf

class Facts : Prop extends Facts₀ where

variable [Facts]
-- ==== Proof.BodyBits.lean ====
/-
  The frame of the joint kernel's one pallas_call, for any float instance.

  The grid is 4 batch entries by 3 tiles of 104 encoder frames; the sequence has 300 frames, so the third
  tile's block overhangs the encoder array and the result array by 12 frames.  A clipped fetch fills the
  staging buffer's first 300 - 104·ti rows (all 104 for ti = 0, 1; 92 for ti = 2) with the array's rows and
  leaves in the others words nothing names.  The body never lets those words through: before anything else it
  replaces every row whose global frame number 104·ti + r is 300 or more by zero.  Those are exactly the rows
  the fetch did not fill, so the masked block, and with it everything the body stores, is one function of the
  encoder block's filled rows and of the four other input blocks (masked_fill, stored_fill).  That is what the
  proof data names: after the body the result's staging buffer holds the body's arithmetic applied to the
  encoder block filled out with zeros.  The write-back at a point copies only the rows inside the result
  array.
-/
import proofs.«429003_j34196529611142_4_alg».proof.Proof.Gen.Kernel.Frame
import proofs.«429003_j34196529611142_4_alg».proof.Proof.Gen.Kernel.Skeleton
import Idealize.ShloMosaic.Lib.Pipeline.Value
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each buffer whole, at zero offsets -/

abbrev rE : Rect S1x104x512 := Rect.unit (s := S1x104x512) ![0, 0, 0] S1x104x512.size inb_S1x104x512_S1x104x512_0_0_0
abbrev rD : Rect S1x101x512 := Rect.unit (s := S1x101x512) ![0, 0, 0] S1x101x512.size inb_S1x101x512_S1x101x512_0_0_0
abbrev rW : Rect S512x640 := Rect.unit (s := S512x640) ![0, 0] S512x640.size inb_S512x640_S512x640_0_0
abbrev rB : Rect S1x640 := Rect.unit (s := S1x640) ![0, 0] S1x640.size inb_S1x640_S1x640_0_0
abbrev rO : Rect S1x104x101x640 := Rect.unit (s := S1x104x101x640) ![0, 0, 0, 0] S1x104x101x640.size inb_S1x104x101x640_S1x104x101x640_0_0_0_0

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## What the body computes -/

/-- The encoder block with every row at or past the sequence's end (global frame 104·ti + r ≥ 300) set to zero. -/
def masked (i : grid0.Coords) (x0 : Vec F S1x104x512 .f32) : FVec F S104x512 .f32 :=
  select (cmpi .slt (addi (broadcast S104x512 (Scalar.muli (BitVec.ofNat 32 (i 1).val) 104#32)) (iota .tc S104x512 32 [0] iota_S104x512_d0_w32)) (broadcast S104x512 300#32))
    (shapeCast S104x512 x0 shapeCasts_S1x104x512_S104x512) (broadcast S104x512 (Scalar.ofBits .f32 0x00000000#32))

/-- The encoder side's projection: the GELU of the masked block times the first weight block. -/
def projOf (v9 : FVec F S104x512 .f32) (x2 : Vec F S512x640 .f32) : FVec F S104x640 .f32 :=
  matmul dot_S104x512_S512x640_S104x640_1_0_0_1_n_n (some .fp32)
    (mulf v9 (mulf (broadcast S104x512 (Scalar.ofBits .f32 0x3F000000#32)) (addf (broadcast S104x512 (Scalar.ofBits .f32 0x3F800000#32))
      (tanh (mulf (broadcast S104x512 (Scalar.ofBits .f32 0x3F4C422A#32)) (addf v9 (mulf (broadcast S104x512 (Scalar.ofBits .f32 0x3D372713#32)) (mulf v9 (mulf v9 v9)))))))))
    (shapeCast S512x640 x2 shapeCasts_S512x640_S512x640) (constant S104x640 .f32 0x00000000#32)

theorem k0_pay2_eq (i : grid0.Coords) (x0 : Vec F S1x104x512 .f32) (x2 : Vec F S512x640 .f32) :
    k0_pay2 i x0 x2 = projOf (masked i x0) x2 := rfl

/-- What the body stores into the result's staging buffer, from what its five input buffers hold. -/
def stored (i : grid0.Coords) (x0 : Vec F S1x104x512 .f32) (x1 : Vec F S1x101x512 .f32) (x2 x3 : Vec F S512x640 .f32) (x4 : Vec F S1x640 .f32) :
    Vec F S1x104x101x640 .f32 :=
  k0_pay1 (k0_pay2 i x0 x2) (k0_pay3 x1) (k0_pay4 x1) (Scalar.ofBits .f32 0x3F000000#32) x3 x4

/-! ## The mask hides the rows the fetch did not fill -/

/-- A row the comparison keeps lies inside the sequence: 104·ti + r < 300 (decided over the 3 tiles and 104 rows). -/
theorem row_kept : ∀ (a : Fin 3) (r : Fin 104),
    IntOp.cmpi .slt (IntOp.addi (Scalar.muli (BitVec.ofNat 32 a.val) 104#32) (BitVec.ofNat 32 r.val)) 300#32 = 1#1 → 104 * a.val + r.val < 300 := by
  decide +kernel

/-- What the fetch at a point fills of the encoder's buffer: all of the unit axis and of the 512 features, and the
    first min 104 (300 - 104·ti) rows. -/
theorem xsize0 : ∀ t : Fin grid0.N, win0_0.xsize (grid0.coords t) 0 = 1 ∧ win0_0.xsize (grid0.coords t) 2 = 512
    ∧ win0_0.xsize (grid0.coords t) 1 = min 104 (300 - 104 * (grid0.coords t 1).val) := by
  decide +kernel

/-- The masked block does not depend on what the buffer holds outside the filled rows. -/
theorem masked_fill (t : Fin cfg0.N) (d d' : S1x104x512.Idx → Elt F .f32) (g : (win0_0.xblock (grid0.coords t)).Idx → Elt F .f32) :
    masked (grid0.coords t) (win0_0.fill (grid0.coords t) d g) = masked (grid0.coords t) (win0_0.fill (grid0.coords t) d' g) := by
  funext j
  unfold masked
  rw [ValueIdx.select_apply, ValueIdx.select_apply]
  by_cases hc : cmpi .slt (addi (broadcast S104x512 (Scalar.muli (BitVec.ofNat 32 (grid0.coords t 1).val) 104#32)) (iota .tc S104x512 32 [0] iota_S104x512_d0_w32)) (broadcast S104x512 300#32) j = 1#1
  · rw [hc, ValueIdx.select_one, ValueIdx.select_one]
    have hk : IntOp.cmpi .slt (IntOp.addi (Scalar.muli (BitVec.ofNat 32 (grid0.coords t 1).val) 104#32) (BitVec.ofNat 32 (j 0).val)) 300#32 = 1#1 := by
      rw [← hc]
      show _ = IntOp.cmpi .slt (IntOp.addi _ (iota .tc S104x512 32 [0] iota_S104x512_d0_w32 j)) _
      rw [iota_single_apply]; rfl
    have hlt := row_kept ⟨(grid0.coords t 1).val, (grid0.coords t 1).isLt⟩ ⟨(j 0).val, (j 0).isLt⟩ hk
    obtain ⟨e0, e2, e1⟩ := xsize0 t
    rw [shapeCast_dropUnit_apply, shapeCast_dropUnit_apply]
    have hm : win0_0.moved (grid0.coords t) (Fin.cons ⟨0, Nat.one_pos⟩ j) = true :=
      (win0_0.moved_iff _ _).mpr fun a => match a with
        | ⟨0, _⟩ => by show (0 : Nat) < win0_0.xsize (grid0.coords t) 0; rw [e0]; exact Nat.one_pos
        | ⟨1, _⟩ => by
          show (j 0).val < win0_0.xsize (grid0.coords t) 1; rw [e1]
          have h104 : (j 0).val < 104 := (j 0).isLt
          have : 104 * (grid0.coords t 1).val + (j 0).val < 300 := hlt
          omega
        | ⟨2, _⟩ => by show (j 1).val < win0_0.xsize (grid0.coords t) 2; rw [e2]; exact (j 1).isLt
    unfold Pipeline.Window.fill; rw [dif_pos hm, dif_pos hm]
  · rw [ValueIdx.eq_zero_of_ne_one hc, ValueIdx.select_zero, ValueIdx.select_zero]

/-- So neither does what the body stores. -/
theorem stored_fill (t : Fin cfg0.N) (d d' : S1x104x512.Idx → Elt F .f32) (g : (win0_0.xblock (grid0.coords t)).Idx → Elt F .f32)
    (x1 : Vec F S1x101x512 .f32) (x2 x3 : Vec F S512x640 .f32) (x4 : Vec F S1x640 .f32) :
    stored (grid0.coords t) (win0_0.fill (grid0.coords t) d g) x1 x2 x3 x4 = stored (grid0.coords t) (win0_0.fill (grid0.coords t) d' g) x1 x2 x3 x4 := by
  unfold stored; rw [k0_pay2_eq, k0_pay2_eq, masked_fill t d d' g]

/-! ## The body's triple -/

set_option maxHeartbeats 1000000 in
/-- The kernel body on whole staging memrefs, the five inputs' at contents x0 … x4 and the result's at anything, runs to the
    continuation holding the inputs' as they were and the result's at `stored` of them: five whole loads (and one of the
    result's buffer, unused), the arithmetic, one whole store. -/
theorem sound_kernel (c : Dev nD) (E : Set ℕ) (i : grid0.Coords)
    (arg2 : Memref sig .tc .vmem S1x104x512 .f32) (harg2 : arg2.IsWhole) (arg3 : Memref sig .tc .vmem S1x101x512 .f32) (harg3 : arg3.IsWhole)
    (arg4 : Memref sig .tc .vmem S512x640 .f32) (harg4 : arg4.IsWhole) (arg5 : Memref sig .tc .vmem S512x640 .f32) (harg5 : arg5.IsWhole)
    (arg6 : Memref sig .tc .vmem S1x640 .f32) (harg6 : arg6.IsWhole) (arg7 : Memref sig .tc .vmem S1x104x101x640 .f32) (harg7 : arg7.IsWhole)
    (x0 : Vec F S1x104x512 .f32) (x1 : Vec F S1x101x512 .f32) (x2 x3 : Vec F S512x640 .f32) (x4 : Vec F S1x640 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (stored i x0 x1 x2 x3 x4)) -∗ K ⟨⟩))
      ⊢ wp frame (wpE (defs₀ (F := F)) Variants.none c none) E (cc0__joint_kernel i arg2 harg2 arg3 harg3 arg4 harg4 arg5 harg5 arg6 harg6 arg7 harg7) K := by
  simp only [cc0__joint_kernel_eq_skeleton]; unfold cc0__joint_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_words
  rw [View.read_writes_eq_canon _ _ _ (fun y => ⟨_, List.mem_singleton_self _, View.mem_set_unit_zero hz4 inb_S1x104x101x640_S1x104x101x640_0_0_0_0 y⟩), View.canon_unit_zero hz4]
  simp only [View.readAt_eq_ld, View.ld_unit_zero (S := S1x104x512) hz3, View.ld_unit_zero (S := S1x101x512) hz3,
    View.ld_unit_zero (S := S512x640) hz2, View.ld_unit_zero (S := S1x640) hz2]
  rfl

/-! ## The pipeline's proof data -/

/-- The encoder's block at a point, its rows past the array's end filled out with zeros. -/
def encBlk (c : Dev nD) (t : Fin cfg0.N) : Vec F S1x104x512 .f32 :=
  win0_0.fill (grid0.coords t) (fun _ => Scalar.ofBits .f32 0x00000000#32) (iblk m c 0 t)

/-- What the body leaves in the result's staging buffer at a point. -/
def outBlk (c : Dev nD) (t : Fin cfg0.N) : Vec F S1x104x101x640 .f32 :=
  stored (grid0.coords t) (encBlk m c t) (iblk m c 1 t) (iblk m c 2 t) (iblk m c 3 t) (iblk m c 4 t)

/-- The proof data of the one pipeline on core c: the arrays as the region finds them; after the body at point t each
    input's buffer at its block (the encoder's filled out with zeros) and the result's at `outBlk`; the invariant is the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => encBlk m c t
    | ⟨1, _⟩ => iblk m c 1 t
    | ⟨2, _⟩ => iblk m c 2 t
    | ⟨3, _⟩ => iblk m c 3 t
    | ⟨4, _⟩ => iblk m c 4 t
    | ⟨5, _⟩ => outBlk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = encBlk m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outBlk m c t := by dsimp only [dats]

/-- The encoder's buffer is fetched at every point: it holds the block on the filled rows, anything elsewhere. -/
theorem before0_0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The result's window is never fetched, and written back at every point: its buffer holds nothing the body may use. -/
theorem fetch0_5 : ∀ t : Fin cfg0.N, (cfg0.win 5).fetch t = false :=
  (by decide +kernel : ∀ t : Fin grid0.N, win0_5.fetch t = false)
theorem before0_5 (c : Dev nD) (t : Fin cfg0.N) (d) : (dats m 0 c).before 5 t d = d := by
  unfold Dat.before
  rw [if_neg (by rw [fetch0_5 t]; exact Bool.false_ne_true)]
  split
  · rfl
  · dsimp only; rw [if_pos (flush0_5 _)]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body returns: the two clipped windows' buffers stated on the rows their transfers move only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare
        ((cfg0.win 5).fill (cfg0.grid.coords t) d ((cfg0.win 5).cut (cfg0.grid.coords t) ((dats m 0 c).after 5 t)))))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (win0_0.fill (grid0.coords t) d0 (iblk m c 0 t)) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  have h0 : win0_0.cut (grid0.coords t) (encBlk m c t) = iblk m c 0 t := win0_0.cut_fill _ _ _
  have h5 : win0_5.fill (grid0.coords t)
      (stored (grid0.coords t) (win0_0.fill (grid0.coords t) d0 (iblk m c 0 t)) (iblk m c 1 t) (iblk m c 2 t) (iblk m c 3 t) (iblk m c 4 t))
      (win0_5.cut (grid0.coords t) (outBlk m c t))
      = stored (grid0.coords t) (win0_0.fill (grid0.coords t) d0 (iblk m c 0 t)) (iblk m c 1 t) (iblk m c 2 t) (iblk m c 3 t) (iblk m c 4 t) := by
    have e : outBlk m c t
        = stored (grid0.coords t) (win0_0.fill (grid0.coords t) d0 (iblk m c 0 t)) (iblk m c 1 t) (iblk m c 2 t) (iblk m c 3 t) (iblk m c 4 t) :=
      stored_fill t (fun _ => Scalar.ofBits .f32 0x00000000#32) d0 (iblk m c 0 t) (iblk m c 1 t) (iblk m c 2 t) (iblk m c 3 t) (iblk m c 4 t)
    rw [e]
    exact win0_5.fill_cut _ _
  isplitl [H0]
  · iexists d0
    change _ ⊢ owns (c : Thread nD τ) (st0_0 t) fullShare (win0_0.fill (grid0.coords t) d0 (win0_0.cut (grid0.coords t) (encBlk m c t)))
    rw [h0]; try iexact H0
  isplitl [H1]; · iexact H1
  isplitl [H2]; · iexact H2
  isplitl [H3]; · iexact H3
  isplitl [H4]; · iexact H4
  · iexists (stored (grid0.coords t) (win0_0.fill (grid0.coords t) d0 (iblk m c 0 t)) (iblk m c 1 t) (iblk m c 2 t) (iblk m c 3 t) (iblk m c 4 t))
    change _ ⊢ owns (c : Thread nD τ) (st0_5 t) fullShare (win0_5.fill (grid0.coords t) _ (win0_5.cut (grid0.coords t) (outBlk m c t)))
    rw [h5]; try iexact H5

/-- The library's body obligation in its loose form (the two clipped windows are stated on their moved rows), at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- For any values, from any memory with zero counters: every weakly fair execution of @main terminates, every array of the
    pipeline ends at what the write-backs leave of the proof data, every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the program runs to the end, faults nowhere, and leaves its four argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.BodyIdeal.lean ====
/-
  The frame of the joint kernel's one pallas_call, for any float instance.

  The grid is 4 batch entries by 3 tiles of 104 encoder frames; the sequence has 300 frames, so the third
  tile's block overhangs the encoder array and the result array by 12 frames.  A clipped fetch fills the
  staging buffer's first 300 - 104·ti rows (all 104 for ti = 0, 1; 92 for ti = 2) with the array's rows and
  leaves in the others words nothing names.  The body never lets those words through: before anything else it
  replaces every row whose global frame number 104·ti + r is 300 or more by zero.  Those are exactly the rows
  the fetch did not fill, so the masked block, and with it everything the body stores, is one function of the
  encoder block's filled rows and of the four other input blocks (masked_fill, stored_fill).  That is what the
  proof data names: after the body the result's staging buffer holds the body's arithmetic applied to the
  encoder block filled out with zeros.  The write-back at a point copies only the rows inside the result
  array.
-/
import proofs.«429003_j34196529611142_4_alg».proof.Proof.Gen.KernelIdeal.Frame
import proofs.«429003_j34196529611142_4_alg».proof.Proof.Gen.KernelIdeal.Skeleton
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each buffer whole, at zero offsets -/

abbrev rE : Rect S1x104x512 := Rect.unit (s := S1x104x512) ![0, 0, 0] S1x104x512.size inb_S1x104x512_S1x104x512_0_0_0
abbrev rD : Rect S1x101x512 := Rect.unit (s := S1x101x512) ![0, 0, 0] S1x101x512.size inb_S1x101x512_S1x101x512_0_0_0
abbrev rW : Rect S512x640 := Rect.unit (s := S512x640) ![0, 0] S512x640.size inb_S512x640_S512x640_0_0
abbrev rB : Rect S1x640 := Rect.unit (s := S1x640) ![0, 0] S1x640.size inb_S1x640_S1x640_0_0
abbrev rO : Rect S1x104x101x640 := Rect.unit (s := S1x104x101x640) ![0, 0, 0, 0] S1x104x101x640.size inb_S1x104x101x640_S1x104x101x640_0_0_0_0

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## What the body computes -/

/-- The encoder block with every row at or past the sequence's end (global frame 104·ti + r ≥ 300) set to zero. -/
def masked (i : grid0.Coords) (x0 : Vec F S1x104x512 .f32) : FVec F S104x512 .f32 :=
  select (cmpi .slt (addi (broadcast S104x512 (Scalar.muli (BitVec.ofNat 32 (i 1).val) 104#32)) (iota .tc S104x512 32 [0] iota_S104x512_d0_w32)) (broadcast S104x512 300#32))
    (shapeCast S104x512 x0 shapeCasts_S1x104x512_S104x512) (broadcast S104x512 (Scalar.ofBits .f32 0x00000000#32))

/-- The encoder side's projection: the GELU of the masked block times the first weight block. -/
def projOf (v9 : FVec F S104x512 .f32) (x2 : Vec F S512x640 .f32) : FVec F S104x640 .f32 :=
  matmul dot_S104x512_S512x640_S104x640_1_0_0_1_n_n (some .fp32)
    (mulf v9 (mulf (broadcast S104x512 (Scalar.ofBits .f32 0x3F000000#32)) (addf (broadcast S104x512 (Scalar.ofBits .f32 0x3F800000#32))
      (tanh (mulf (broadcast S104x512 (Scalar.ofBits .f32 0x3F4C422A#32)) (addf v9 (mulf (broadcast S104x512 (Scalar.ofBits .f32 0x3D372713#32)) (mulf v9 (mulf v9 v9)))))))))
    (shapeCast S512x640 x2 shapeCasts_S512x640_S512x640) (constant S104x640 .f32 0x00000000#32)

theorem k0_pay2_eq (i : grid0.Coords) (x0 : Vec F S1x104x512 .f32) (x2 : Vec F S512x640 .f32) :
    k0_pay2 i x0 x2 = projOf (masked i x0) x2 := rfl

/-- What the body stores into the result's staging buffer, from what its five input buffers hold. -/
def stored (i : grid0.Coords) (x0 : Vec F S1x104x512 .f32) (x1 : Vec F S1x101x512 .f32) (x2 x3 : Vec F S512x640 .f32) (x4 : Vec F S1x640 .f32) :
    Vec F S1x104x101x640 .f32 :=
  k0_pay1 (k0_pay2 i x0 x2) (k0_pay3 x1) (k0_pay4 x1) (Scalar.ofBits .f32 0x3F000000#32) x3 x4

/-! ## The mask hides the rows the fetch did not fill -/

/-- A row the comparison keeps lies inside the sequence: 104·ti + r < 300 (decided over the 3 tiles and 104 rows). -/
theorem row_kept : ∀ (a : Fin 3) (r : Fin 104),
    IntOp.cmpi .slt (IntOp.addi (Scalar.muli (BitVec.ofNat 32 a.val) 104#32) (BitVec.ofNat 32 r.val)) 300#32 = 1#1 → 104 * a.val + r.val < 300 := by
  decide +kernel

/-- What the fetch at a point fills of the encoder's buffer: all of the unit axis and of the 512 features, and the
    first min 104 (300 - 104·ti) rows. -/
theorem xsize0 : ∀ t : Fin grid0.N, win0_0.xsize (grid0.coords t) 0 = 1 ∧ win0_0.xsize (grid0.coords t) 2 = 512
    ∧ win0_0.xsize (grid0.coords t) 1 = min 104 (300 - 104 * (grid0.coords t 1).val) := by
  decide +kernel

/-- The masked block does not depend on what the buffer holds outside the filled rows. -/
theorem masked_fill (t : Fin cfg0.N) (d d' : S1x104x512.Idx → Elt F .f32) (g : (win0_0.xblock (grid0.coords t)).Idx → Elt F .f32) :
    masked (grid0.coords t) (win0_0.fill (grid0.coords t) d g) = masked (grid0.coords t) (win0_0.fill (grid0.coords t) d' g) := by
  funext j
  unfold masked
  rw [ValueIdx.select_apply, ValueIdx.select_apply]
  by_cases hc : cmpi .slt (addi (broadcast S104x512 (Scalar.muli (BitVec.ofNat 32 (grid0.coords t 1).val) 104#32)) (iota .tc S104x512 32 [0] iota_S104x512_d0_w32)) (broadcast S104x512 300#32) j = 1#1
  · rw [hc, ValueIdx.select_one, ValueIdx.select_one]
    have hk : IntOp.cmpi .slt (IntOp.addi (Scalar.muli (BitVec.ofNat 32 (grid0.coords t 1).val) 104#32) (BitVec.ofNat 32 (j 0).val)) 300#32 = 1#1 := by
      rw [← hc]
      show _ = IntOp.cmpi .slt (IntOp.addi _ (iota .tc S104x512 32 [0] iota_S104x512_d0_w32 j)) _
      rw [iota_single_apply]; rfl
    have hlt := row_kept ⟨(grid0.coords t 1).val, (grid0.coords t 1).isLt⟩ ⟨(j 0).val, (j 0).isLt⟩ hk
    obtain ⟨e0, e2, e1⟩ := xsize0 t
    rw [shapeCast_dropUnit_apply, shapeCast_dropUnit_apply]
    have hm : win0_0.moved (grid0.coords t) (Fin.cons ⟨0, Nat.one_pos⟩ j) = true :=
      (win0_0.moved_iff _ _).mpr fun a => match a with
        | ⟨0, _⟩ => by show (0 : Nat) < win0_0.xsize (grid0.coords t) 0; rw [e0]; exact Nat.one_pos
        | ⟨1, _⟩ => by
          show (j 0).val < win0_0.xsize (grid0.coords t) 1; rw [e1]
          have h104 : (j 0).val < 104 := (j 0).isLt
          have : 104 * (grid0.coords t 1).val + (j 0).val < 300 := hlt
          omega
        | ⟨2, _⟩ => by show (j 1).val < win0_0.xsize (grid0.coords t) 2; rw [e2]; exact (j 1).isLt
    unfold Pipeline.Window.fill; rw [dif_pos hm, dif_pos hm]
  · rw [ValueIdx.eq_zero_of_ne_one hc, ValueIdx.select_zero, ValueIdx.select_zero]

/-- So neither does what the body stores. -/
theorem stored_fill (t : Fin cfg0.N) (d d' : S1x104x512.Idx → Elt F .f32) (g : (win0_0.xblock (grid0.coords t)).Idx → Elt F .f32)
    (x1 : Vec F S1x101x512 .f32) (x2 x3 : Vec F S512x640 .f32) (x4 : Vec F S1x640 .f32) :
    stored (grid0.coords t) (win0_0.fill (grid0.coords t) d g) x1 x2 x3 x4 = stored (grid0.coords t) (win0_0.fill (grid0.coords t) d' g) x1 x2 x3 x4 := by
  unfold stored; rw [k0_pay2_eq, k0_pay2_eq, masked_fill t d d' g]

/-! ## The body's triple -/

set_option maxHeartbeats 1000000 in
/-- The kernel body on whole staging memrefs, the five inputs' at contents x0 … x4 and the result's at anything, runs to the
    continuation holding the inputs' as they were and the result's at `stored` of them: five whole loads (and one of the
    result's buffer, unused), the arithmetic, one whole store. -/
theorem sound_kernel (c : Dev nD) (E : Set ℕ) (i : grid0.Coords)
    (arg2 : Memref sig .tc .vmem S1x104x512 .f32) (harg2 : arg2.IsWhole) (arg3 : Memref sig .tc .vmem S1x101x512 .f32) (harg3 : arg3.IsWhole)
    (arg4 : Memref sig .tc .vmem S512x640 .f32) (harg4 : arg4.IsWhole) (arg5 : Memref sig .tc .vmem S512x640 .f32) (harg5 : arg5.IsWhole)
    (arg6 : Memref sig .tc .vmem S1x640 .f32) (harg6 : arg6.IsWhole) (arg7 : Memref sig .tc .vmem S1x104x101x640 .f32) (harg7 : arg7.IsWhole)
    (x0 : Vec F S1x104x512 .f32) (x1 : Vec F S1x101x512 .f32) (x2 x3 : Vec F S512x640 .f32) (x4 : Vec F S1x640 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (stored i x0 x1 x2 x3 x4)) -∗ K ⟨⟩))
      ⊢ wp frame (wpE (defs₀ (F := F)) Variants.none c none) E (cc0__joint_kernel i arg2 harg2 arg3 harg3 arg4 harg4 arg5 harg5 arg6 harg6 arg7 harg7) K := by
  simp only [cc0__joint_kernel_eq_skeleton]; unfold cc0__joint_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_words
  rw [View.read_writes_eq_canon _ _ _ (fun y => ⟨_, List.mem_singleton_self _, View.mem_set_unit_zero hz4 inb_S1x104x101x640_S1x104x101x640_0_0_0_0 y⟩), View.canon_unit_zero hz4]
  simp only [View.readAt_eq_ld, View.ld_unit_zero (S := S1x104x512) hz3, View.ld_unit_zero (S := S1x101x512) hz3,
    View.ld_unit_zero (S := S512x640) hz2, View.ld_unit_zero (S := S1x640) hz2]
  rfl

/-! ## The pipeline's proof data -/

/-- The encoder's block at a point, its rows past the array's end filled out with zeros. -/
def encBlk (c : Dev nD) (t : Fin cfg0.N) : Vec F S1x104x512 .f32 :=
  win0_0.fill (grid0.coords t) (fun _ => Scalar.ofBits .f32 0x00000000#32) (iblk m c 0 t)

/-- What the body leaves in the result's staging buffer at a point. -/
def outBlk (c : Dev nD) (t : Fin cfg0.N) : Vec F S1x104x101x640 .f32 :=
  stored (grid0.coords t) (encBlk m c t) (iblk m c 1 t) (iblk m c 2 t) (iblk m c 3 t) (iblk m c 4 t)

/-- The proof data of the one pipeline on core c: the arrays as the region finds them; after the body at point t each
    input's buffer at its block (the encoder's filled out with zeros) and the result's at `outBlk`; the invariant is the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => encBlk m c t
    | ⟨1, _⟩ => iblk m c 1 t
    | ⟨2, _⟩ => iblk m c 2 t
    | ⟨3, _⟩ => iblk m c 3 t
    | ⟨4, _⟩ => iblk m c 4 t
    | ⟨5, _⟩ => outBlk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = encBlk m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outBlk m c t := by dsimp only [dats]

/-- The encoder's buffer is fetched at every point: it holds the block on the filled rows, anything elsewhere. -/
theorem before0_0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The result's window is never fetched, and written back at every point: its buffer holds nothing the body may use. -/
theorem fetch0_5 : ∀ t : Fin cfg0.N, (cfg0.win 5).fetch t = false :=
  (by decide +kernel : ∀ t : Fin grid0.N, win0_5.fetch t = false)
theorem before0_5 (c : Dev nD) (t : Fin cfg0.N) (d) : (dats m 0 c).before 5 t d = d := by
  unfold Dat.before
  rw [if_neg (by rw [fetch0_5 t]; exact Bool.false_ne_true)]
  split
  · rfl
  · dsimp only; rw [if_pos (flush0_5 _)]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body returns: the two clipped windows' buffers stated on the rows their transfers move only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare
        ((cfg0.win 5).fill (cfg0.grid.coords t) d ((cfg0.win 5).cut (cfg0.grid.coords t) ((dats m 0 c).after 5 t)))))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (win0_0.fill (grid0.coords t) d0 (iblk m c 0 t)) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  have h0 : win0_0.cut (grid0.coords t) (encBlk m c t) = iblk m c 0 t := win0_0.cut_fill _ _ _
  have h5 : win0_5.fill (grid0.coords t)
      (stored (grid0.coords t) (win0_0.fill (grid0.coords t) d0 (iblk m c 0 t)) (iblk m c 1 t) (iblk m c 2 t) (iblk m c 3 t) (iblk m c 4 t))
      (win0_5.cut (grid0.coords t) (outBlk m c t))
      = stored (grid0.coords t) (win0_0.fill (grid0.coords t) d0 (iblk m c 0 t)) (iblk m c 1 t) (iblk m c 2 t) (iblk m c 3 t) (iblk m c 4 t) := by
    have e : outBlk m c t
        = stored (grid0.coords t) (win0_0.fill (grid0.coords t) d0 (iblk m c 0 t)) (iblk m c 1 t) (iblk m c 2 t) (iblk m c 3 t) (iblk m c 4 t) :=
      stored_fill t (fun _ => Scalar.ofBits .f32 0x00000000#32) d0 (iblk m c 0 t) (iblk m c 1 t) (iblk m c 2 t) (iblk m c 3 t) (iblk m c 4 t)
    rw [e]
    exact win0_5.fill_cut _ _
  isplitl [H0]
  · iexists d0
    change _ ⊢ owns (c : Thread nD τ) (st0_0 t) fullShare (win0_0.fill (grid0.coords t) d0 (win0_0.cut (grid0.coords t) (encBlk m c t)))
    rw [h0]; try iexact H0
  isplitl [H1]; · iexact H1
  isplitl [H2]; · iexact H2
  isplitl [H3]; · iexact H3
  isplitl [H4]; · iexact H4
  · iexists (stored (grid0.coords t) (win0_0.fill (grid0.coords t) d0 (iblk m c 0 t)) (iblk m c 1 t) (iblk m c 2 t) (iblk m c 3 t) (iblk m c 4 t))
    change _ ⊢ owns (c : Thread nD τ) (st0_5 t) fullShare (win0_5.fill (grid0.coords t) _ (win0_5.cut (grid0.coords t) (outBlk m c t)))
    rw [h5]; try iexact H5

/-- The library's body obligation in its loose form (the two clipped windows are stated on their moved rows), at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- For any values, from any memory with zero counters: every weakly fair execution of @main terminates, every array of the
    pipeline ends at what the write-backs leave of the proof data, every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the program runs to the end, faults nowhere, and leaves its four argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.Spec.lean ====
/-
  The joint network as ONE function of the four argument arrays, on the extended reals.

  For a batch entry b, an encoder frame t, a decoder step u and an output feature v,

      joint b t u v = Σ_{d<512} gelu (enc b t d) · W v d  +  (Σ_{d<512} gelu (dec b u d) · W v (512 + d)  +  bias v)

  where gelu x = x · (1/2 · (1 + tanh (κ · (x + a · (x · (x · x)))))) is the tanh form of the GELU with its
  four literals κ, a, 1/2, 1 kept as the binary words both programs carry.  The same number is
  Σ_{k<1024} gelu (cat b t u k) · W v k + bias v for the concatenation cat of the two feature rows: a sum over
  1024 indices is the sum over the first 512 plus the sum over the last 512, and addition of extended reals
  is associative, so no finiteness is used.
-/
import Idealize.ShloMosaic.PureOps.Ideal
import Idealize.ShloMosaic.PureOps.Ideal.Laws
import Idealize.ShloMosaic.Lib.ValueIdx

noncomputable section

namespace Cert.Joint

open Idealize.ShloMosaic Idealize.ShloMosaic.ValueIdx

/-- The GELU's four literals, as the words the programs print. -/
abbrev cHalf : EReal := Ideal.ofBits .f32 0x3F000000#32
abbrev cOne : EReal := Ideal.ofBits .f32 0x3F800000#32
abbrev cKappa : EReal := Ideal.ofBits .f32 0x3F4C422A#32
abbrev cCube : EReal := Ideal.ofBits .f32 0x3D372713#32

/-- The tanh form of the GELU, the cube associated to the right: x · (x · x). -/
def gelu (x : EReal) : EReal :=
  x * (cHalf * (cOne + Ideal.tanh (cKappa * (x + cCube * (x * (x * x))))))

/-- The same with the cube associated to the left, (x · x) · x: multiplication of extended reals commutes. -/
theorem gelu_cube_left (x : EReal) :
    x * (cHalf * (cOne + Ideal.tanh (cKappa * (x + cCube * ((x * x) * x))))) = gelu x := by
  unfold gelu; rw [mul_comm (x * x) x]

abbrev EncS : Shape := ⟨3, ![4, 300, 512]⟩
abbrev DecS : Shape := ⟨3, ![4, 101, 512]⟩
abbrev WS : Shape := ⟨2, ![640, 1024]⟩
abbrev BS : Shape := ⟨1, ![640]⟩
abbrev OutS : Shape := ⟨4, ![4, 300, 101, 640]⟩

/-- Column d of the weight's first half and of its second half. -/
abbrev lo (d : Fin 512) : Fin 1024 := ⟨d.val, by omega⟩
abbrev hi (d : Fin 512) : Fin 1024 := ⟨512 + d.val, by omega⟩

/-- The encoder's projection, the decoder's projection, and the joint output at coordinates. -/
def encProj (enc : EncS.Idx → EReal) (W : WS.Idx → EReal) (b : Fin 4) (t : Fin 300) (v : Fin 640) : EReal :=
  ∑ d : Fin 512, gelu (enc (ix3 b t d)) * W (ix2 v (lo d))

def decProj (dec : DecS.Idx → EReal) (W : WS.Idx → EReal) (b : Fin 4) (u : Fin 101) (v : Fin 640) : EReal :=
  ∑ d : Fin 512, gelu (dec (ix3 b u d)) * W (ix2 v (hi d))

def jointAt (enc : EncS.Idx → EReal) (dec : DecS.Idx → EReal) (W : WS.Idx → EReal) (bias : BS.Idx → EReal)
    (b : Fin 4) (t : Fin 300) (u : Fin 101) (v : Fin 640) : EReal :=
  encProj enc W b t v + (decProj dec W b u v + bias (ix1 v))

/-- The joint output as an array. -/
def joint (enc : EncS.Idx → EReal) (dec : DecS.Idx → EReal) (W : WS.Idx → EReal) (bias : BS.Idx → EReal) : OutS.Idx → EReal :=
  fun j => jointAt enc dec W bias (j 0) (j 1) (j 2) (j 3)

theorem joint_ix4 (enc : EncS.Idx → EReal) (dec : DecS.Idx → EReal) (W : WS.Idx → EReal) (bias : BS.Idx → EReal)
    (b : Fin 4) (t : Fin 300) (u : Fin 101) (v : Fin 640) :
    joint enc dec W bias (ix4 b t u v) = jointAt enc dec W bias b t u v := rfl

/-- A sum over 1024 indices is the sum over the first 512 plus the sum over the last 512. -/
theorem sum_split (f : Fin 1024 → EReal) : ∑ k : Fin 1024, f k = ∑ d : Fin 512, f (lo d) + ∑ d : Fin 512, f (hi d) := by
  exact Fin.sum_univ_add (a := 512) (b := 512) (f := f)

/-- The feature row the reference concatenates: the encoder's below 512, the decoder's from 512 on. -/
def cat (enc : EncS.Idx → EReal) (dec : DecS.Idx → EReal) (b : Fin 4) (t : Fin 300) (u : Fin 101) (k : Fin 1024) : EReal :=
  if h : k.val < 512 then enc (ix3 b t ⟨k.val, h⟩) else dec (ix3 b u ⟨k.val - 512, by have := k.isLt; omega⟩)

/-- One product over the concatenated row plus the bias is the joint output. -/
theorem concat_form (enc : EncS.Idx → EReal) (dec : DecS.Idx → EReal) (W : WS.Idx → EReal) (bias : BS.Idx → EReal)
    (b : Fin 4) (t : Fin 300) (u : Fin 101) (v : Fin 640) :
    (∑ k : Fin 1024, gelu (cat enc dec b t u k) * W (ix2 v k)) + bias (ix1 v) = jointAt enc dec W bias b t u v := by
  unfold jointAt encProj decProj
  have e1 : ∀ d : Fin 512, cat enc dec b t u (lo d) = enc (ix3 b t d) := fun d => by
    have hd : (lo d).val < 512 := d.isLt
    unfold cat; rw [dif_pos hd]
  have e2 : ∀ d : Fin 512, cat enc dec b t u (hi d) = dec (ix3 b u d) := fun d => by
    have hd : ¬ (hi d).val < 512 := by show ¬ (512 + d.val < 512); omega
    unfold cat; rw [dif_neg hd]
    congr 2
    apply Fin.ext; show 512 + d.val - 512 = d.val; omega
  rw [sum_split (fun k => gelu (cat enc dec b t u k) * W (ix2 v k)), add_assoc]
  simp only [e1, e2]

end Cert.Joint

end
-- ==== Proof.KernelPay.lean ====
import proofs.«429003_j34196529611142_4_alg».proof.Proof.Gen.KernelIdeal.Skeleton
import proofs.«429003_j34196529611142_4_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## The two contractions at an index -/

theorem encLhs_row (j : S104x640.Idx) (q : dot_S104x512_S512x640_S104x640_1_0_0_1_n_n.contr.Idx) :
    (dot_S104x512_S512x640_S104x640_1_0_0_1_n_n.lhsIdx j q 0).val = (j 0).val := by
  unfold DotDims.lhsIdx
  rw [dif_neg (show ¬(0 : Fin S104x512.rank) ∈ dot_S104x512_S512x640_S104x640_1_0_0_1_n_n.lhsBatch by decide), dif_pos (show (0 : Fin S104x512.rank) ∈ dot_S104x512_S512x640_S104x640_1_0_0_1_n_n.lhsNonContracting by decide)]
  rfl
theorem encLhs_col (j : S104x640.Idx) (q : dot_S104x512_S512x640_S104x640_1_0_0_1_n_n.contr.Idx) :
    (dot_S104x512_S512x640_S104x640_1_0_0_1_n_n.lhsIdx j q 1).val = (q ⟨0, by decide⟩).val :=
  dot_S104x512_S512x640_S104x640_1_0_0_1_n_n.lhsIdx_val_of_single rfl j q
theorem encRhs_row (j : S104x640.Idx) (q : dot_S104x512_S512x640_S104x640_1_0_0_1_n_n.contr.Idx) :
    (dot_S104x512_S512x640_S104x640_1_0_0_1_n_n.rhsIdx j q 0).val = (q ⟨0, by decide⟩).val :=
  dot_S104x512_S512x640_S104x640_1_0_0_1_n_n.rhsIdx_val_of_single rfl j q
theorem encRhs_col (j : S104x640.Idx) (q : dot_S104x512_S512x640_S104x640_1_0_0_1_n_n.contr.Idx) :
    (dot_S104x512_S512x640_S104x640_1_0_0_1_n_n.rhsIdx j q 1).val = (j 1).val := by
  unfold DotDims.rhsIdx
  rw [dif_neg (show ¬(1 : Fin S512x640.rank) ∈ dot_S104x512_S512x640_S104x640_1_0_0_1_n_n.rhsBatch by decide), dif_pos (show (1 : Fin S512x640.rank) ∈ dot_S104x512_S512x640_S104x640_1_0_0_1_n_n.rhsNonContracting by decide)]
  rfl

/-- The encoder's product into the zero accumulator, at (r, v): the sum over the 512 features. -/
theorem encMatmul_apply (A : FVec Ideal S104x512 .f32) (B : FVec Ideal S512x640 .f32) (r : Fin 104) (v : Fin 640) :
    matmul dot_S104x512_S512x640_S104x640_1_0_0_1_n_n (some .fp32) A B (constant (F := Ideal) S104x640 .f32 0x00000000#32) (ix2 r v)
      = ∑ d : Fin 512, A (ix2 r d) * B (ix2 d v) := by
  refine (Ideal.matmul_constant_zero_apply dot_S104x512_S512x640_S104x640_1_0_0_1_n_n (some .fp32) A B (ix2 r v)).trans ?_
  rw [← Equiv.sum_comp (ValueIdx.contrEquiv1 dot_S104x512_S512x640_S104x640_1_0_0_1_n_n 512 rfl rfl).symm]
  refine Finset.sum_congr rfl fun k _ => ?_
  have hk := ValueIdx.contrEquiv1_symm_val dot_S104x512_S512x640_S104x640_1_0_0_1_n_n 512 rfl rfl k
  have el : dot_S104x512_S512x640_S104x640_1_0_0_1_n_n.lhsIdx (ix2 r v) ((ValueIdx.contrEquiv1 dot_S104x512_S512x640_S104x640_1_0_0_1_n_n 512 rfl rfl).symm k) = ix2 r k := funext fun a => Fin.ext (by
    match a with
    | ⟨0, _⟩ => exact encLhs_row _ _
    | ⟨1, _⟩ => exact (encLhs_col _ _).trans hk)
  have er : dot_S104x512_S512x640_S104x640_1_0_0_1_n_n.rhsIdx (ix2 r v) ((ValueIdx.contrEquiv1 dot_S104x512_S512x640_S104x640_1_0_0_1_n_n 512 rfl rfl).symm k) = ix2 k v := funext fun a => Fin.ext (by
    match a with
    | ⟨0, _⟩ => exact (encRhs_row _ _).trans hk
    | ⟨1, _⟩ => exact encRhs_col _ _)
  rw [el, er]

theorem decLhs_row (j : S101x640.Idx) (q : dot_S101x512_S512x640_S101x640_1_0_0_1_n_n.contr.Idx) :
    (dot_S101x512_S512x640_S101x640_1_0_0_1_n_n.lhsIdx j q 0).val = (j 0).val := by
  unfold DotDims.lhsIdx
  rw [dif_neg (show ¬(0 : Fin S101x512.rank) ∈ dot_S101x512_S512x640_S101x640_1_0_0_1_n_n.lhsBatch by decide), dif_pos (show (0 : Fin S101x512.rank) ∈ dot_S101x512_S512x640_S101x640_1_0_0_1_n_n.lhsNonContracting by decide)]
  rfl
theorem decLhs_col (j : S101x640.Idx) (q : dot_S101x512_S512x640_S101x640_1_0_0_1_n_n.contr.Idx) :
    (dot_S101x512_S512x640_S101x640_1_0_0_1_n_n.lhsIdx j q 1).val = (q ⟨0, by decide⟩).val :=
  dot_S101x512_S512x640_S101x640_1_0_0_1_n_n.lhsIdx_val_of_single rfl j q
theorem decRhs_row (j : S101x640.Idx) (q : dot_S101x512_S512x640_S101x640_1_0_0_1_n_n.contr.Idx) :
    (dot_S101x512_S512x640_S101x640_1_0_0_1_n_n.rhsIdx j q 0).val = (q ⟨0, by decide⟩).val :=
  dot_S101x512_S512x640_S101x640_1_0_0_1_n_n.rhsIdx_val_of_single rfl j q
theorem decRhs_col (j : S101x640.Idx) (q : dot_S101x512_S512x640_S101x640_1_0_0_1_n_n.contr.Idx) :
    (dot_S101x512_S512x640_S101x640_1_0_0_1_n_n.rhsIdx j q 1).val = (j 1).val := by
  unfold DotDims.rhsIdx
  rw [dif_neg (show ¬(1 : Fin S512x640.rank) ∈ dot_S101x512_S512x640_S101x640_1_0_0_1_n_n.rhsBatch by decide), dif_pos (show (1 : Fin S512x640.rank) ∈ dot_S101x512_S512x640_S101x640_1_0_0_1_n_n.rhsNonContracting by decide)]
  rfl

/-- The decoder's product into the zero accumulator, at (u, v): the sum over the 512 features. -/
theorem decMatmul_apply (A : FVec Ideal S101x512 .f32) (B : FVec Ideal S512x640 .f32) (u : Fin 101) (v : Fin 640) :
    matmul dot_S101x512_S512x640_S101x640_1_0_0_1_n_n (some .fp32) A B (constant (F := Ideal) S101x640 .f32 0x00000000#32) (ix2 u v)
      = ∑ d : Fin 512, A (ix2 u d) * B (ix2 d v) := by
  refine (Ideal.matmul_constant_zero_apply dot_S101x512_S512x640_S101x640_1_0_0_1_n_n (some .fp32) A B (ix2 u v)).trans ?_
  rw [← Equiv.sum_comp (ValueIdx.contrEquiv1 dot_S101x512_S512x640_S101x640_1_0_0_1_n_n 512 rfl rfl).symm]
  refine Finset.sum_congr rfl fun k _ => ?_
  have hk := ValueIdx.contrEquiv1_symm_val dot_S101x512_S512x640_S101x640_1_0_0_1_n_n 512 rfl rfl k
  have el : dot_S101x512_S512x640_S101x640_1_0_0_1_n_n.lhsIdx (ix2 u v) ((ValueIdx.contrEquiv1 dot_S101x512_S512x640_S101x640_1_0_0_1_n_n 512 rfl rfl).symm k) = ix2 u k := funext fun a => Fin.ext (by
    match a with
    | ⟨0, _⟩ => exact decLhs_row _ _
    | ⟨1, _⟩ => exact (decLhs_col _ _).trans hk)
  have er : dot_S101x512_S512x640_S101x640_1_0_0_1_n_n.rhsIdx (ix2 u v) ((ValueIdx.contrEquiv1 dot_S101x512_S512x640_S101x640_1_0_0_1_n_n 512 rfl rfl).symm k) = ix2 k v := funext fun a => Fin.ext (by
    match a with
    | ⟨0, _⟩ => exact (decRhs_row _ _).trans hk
    | ⟨1, _⟩ => exact decRhs_col _ _)
  rw [el, er]

/-! ## The mask -/

/-- A frame inside the array (104·k + r < 300) compares below 300: the comparison's word is 1. -/
theorem mask_bit : ∀ (k : Fin 3) (r : Fin 104), k.val * 104 + r.val < 300 →
    IntOp.cmpi .slt (IntOp.addi (Scalar.muli (BitVec.ofNat 32 k.val) 104#32) (BitVec.ofNat 32 r.val)) 300#32 = 1#1 := by
  decide +kernel

/-- The encoder block with the rows past the array's end set to zero. -/
def maskedEnc (i : grid0.Coords) (x0 : Vec Ideal S1x104x512 .f32) : FVec Ideal S104x512 .f32 :=
  select (cmpi .slt (addi (broadcast S104x512 (Scalar.muli (BitVec.ofNat 32 (i 1).val) 104#32)) (iota .tc S104x512 32 [0] iota_S104x512_d0_w32)) (broadcast S104x512 300#32))
    (shapeCast S104x512 x0 shapeCasts_S1x104x512_S104x512) (broadcast S104x512 (Scalar.ofBits .f32 0x00000000#32))

/-- A row inside the array is kept. -/
theorem maskedEnc_apply (i : grid0.Coords) (x0 : Vec Ideal S1x104x512 .f32) (r : Fin 104) (d : Fin 512)
    (hr : (i 1).val * 104 + r.val < 300) : maskedEnc i x0 (ix2 r d) = x0 (ix3 (0 : Fin 1) r d) := by
  have h3 : (i 1).val < 3 := (i 1).isLt
  have hbit := mask_bit ⟨(i 1).val, h3⟩ r hr
  have hiota : iota .tc S104x512 32 [0] iota_S104x512_d0_w32 (ix2 r d) = BitVec.ofNat 32 r.val :=
    iota_single_apply .tc S104x512 32 0 iota_S104x512_d0_w32 (ix2 r d)
  show Scalar.select (IntOp.cmpi .slt (IntOp.addi (Scalar.muli (BitVec.ofNat 32 (i 1).val) 104#32)
    (iota .tc S104x512 32 [0] iota_S104x512_d0_w32 (ix2 r d))) 300#32) (shapeCast S104x512 x0 shapeCasts_S1x104x512_S104x512 (ix2 r d)) _ = _
  rw [hiota, hbit, select_one]
  exact shapeCast_1ab_ab_apply x0 shapeCasts_S1x104x512_S104x512 r d

/-! ## The GELU, elementwise -/

/-- The tanh GELU applied to every element, as both blocks compute it. -/
def geluV {s : Shape} (y : FVec Ideal s .f32) : FVec Ideal s .f32 :=
  mulf y (mulf (broadcast s (Scalar.ofBits .f32 0x3F000000#32)) (addf (broadcast s (Scalar.ofBits .f32 0x3F800000#32))
    (tanh (mulf (broadcast s (Scalar.ofBits .f32 0x3F4C422A#32)) (addf y (mulf (broadcast s (Scalar.ofBits .f32 0x3D372713#32)) (mulf y (mulf y y))))))))

theorem geluV_apply {s : Shape} (y : FVec Ideal s .f32) (j : s.Idx) : geluV y j = Cert.Joint.gelu (y j) := rfl

/-! ## The layout operations of the store, at coordinates -/

section Layout
variable {α : Type}

/-- A [104, 640] array cast to [104, 1, 640] reads, at (p, z, t), the operand at (p, t). -/
theorem shapeCast_rows_apply (x : S104x640.Idx → α) (h : S104x640.ShapeCasts S104x1x640) (p : Fin 104) (z : Fin 1) (t : Fin 640) :
    shapeCast S104x1x640 x h (ix3 p z t) = x (ix2 p t) :=
  shapeCast_apply x h _ _ (by
    have hz : z.val = 0 := by omega
    rw [Shape.rowMajor_val_three, Shape.rowMajor_val_two]
    show p.val * 640 + t.val = (p.val * 1 + z.val) * 640 + t.val
    rw [hz, Nat.mul_one, Nat.add_zero])

/-- A [104, 1, 640] array broadcast to [104, 101, 640] reads, at (p, q, t), the operand at (p, 0, t). -/
theorem broadcastTo_rows_apply (x : S104x1x640.Idx → α) (h : S104x1x640.Broadcasts S104x101x640) (p : Fin 104) (q : Fin 101) (t : Fin 640) :
    broadcastTo S104x101x640 x h (ix3 p q t) = x (ix3 p (0 : Fin 1) t) := by
  refine broadcastTo_apply x h (ix3 p q t) (ix3 p (0 : Fin 1) t) fun ax => ?_
  match ax with
  | ⟨0, _⟩ => show p.val = if (104 : Nat) = 1 then 0 else p.val; rw [if_neg (by decide)]
  | ⟨1, _⟩ => rfl
  | ⟨2, _⟩ => show t.val = if (640 : Nat) = 1 then 0 else t.val; rw [if_neg (by decide)]

/-- A [1, 101, 640] array broadcast to [104, 101, 640] reads, at (p, q, t), the operand at (0, q, t). -/
theorem broadcastTo_steps_apply (x : S1x101x640.Idx → α) (h : S1x101x640.Broadcasts S104x101x640) (p : Fin 104) (q : Fin 101) (t : Fin 640) :
    broadcastTo S104x101x640 x h (ix3 p q t) = x (ix3 (0 : Fin 1) q t) := by
  refine broadcastTo_apply x h (ix3 p q t) (ix3 (0 : Fin 1) q t) fun ax => ?_
  match ax with
  | ⟨0, _⟩ => rfl
  | ⟨1, _⟩ => show q.val = if (101 : Nat) = 1 then 0 else q.val; rw [if_neg (by decide)]
  | ⟨2, _⟩ => show t.val = if (640 : Nat) = 1 then 0 else t.val; rw [if_neg (by decide)]

end Layout

/-! ## The payloads as compositions -/

/-- The encoder's projection: the masked block's GELU times the first weight block. -/
theorem pay2_eq (i : grid0.Coords) (x0 : Vec Ideal S1x104x512 .f32) (x2 : FVec Ideal S512x640 .f32) :
    k0_pay2 (F := Ideal) i x0 x2
      = matmul dot_S104x512_S512x640_S104x640_1_0_0_1_n_n (some .fp32) (geluV (maskedEnc i x0))
          (shapeCast S512x640 x2 shapeCasts_S512x640_S512x640) (constant (F := Ideal) S104x640 .f32 0x00000000#32) := rfl

/-- The encoder's projection at (r, v), for a row inside the array. -/
theorem pay2_apply (i : grid0.Coords) (x0 : Vec Ideal S1x104x512 .f32) (x2 : FVec Ideal S512x640 .f32) (r : Fin 104) (v : Fin 640)
    (hr : (i 1).val * 104 + r.val < 300) :
    k0_pay2 (F := Ideal) i x0 x2 (ix2 r v) = ∑ d : Fin 512, Cert.Joint.gelu (x0 (ix3 (0 : Fin 1) r d)) * x2 (ix2 d v) := by
  refine (congrFun (pay2_eq i x0 x2) (ix2 r v)).trans ?_
  rw [shapeCast_self]
  refine (encMatmul_apply _ _ r v).trans ?_
  refine Finset.sum_congr rfl fun d _ => ?_
  rw [geluV_apply, maskedEnc_apply i x0 r d hr]

/-- The decoder block without its unit axis, at (u, d). -/
theorem pay3_apply (x1 : Vec Ideal S1x101x512 .f32) (u : Fin 101) (d : Fin 512) :
    k0_pay3 (F := Ideal) x1 (ix2 u d) = x1 (ix3 (0 : Fin 1) u d) :=
  shapeCast_1ab_ab_apply x1 shapeCasts_S1x101x512_S101x512 u d

/-- The decoder's projection plus the bias row. -/
def decBias (x1 : Vec Ideal S1x101x512 .f32) (x3 : FVec Ideal S512x640 .f32) (x4 : FVec Ideal S1x640 .f32) : FVec Ideal S101x640 .f32 :=
  addf (matmul dot_S101x512_S512x640_S101x640_1_0_0_1_n_n (some .fp32) (geluV (k0_pay3 x1))
      (shapeCast S512x640 x3 shapeCasts_S512x640_S512x640) (constant (F := Ideal) S101x640 .f32 0x00000000#32))
    (broadcastTo S101x640 (shapeCast S1x640 x4 shapeCasts_S1x640_S1x640) broadcasts_S1x640_S101x640)

/-- The decoder's projection plus the bias, at (u, v). -/
theorem decBias_apply (x1 : Vec Ideal S1x101x512 .f32) (x3 : FVec Ideal S512x640 .f32) (x4 : FVec Ideal S1x640 .f32) (u : Fin 101) (v : Fin 640) :
    decBias x1 x3 x4 (ix2 u v) = (∑ d : Fin 512, Cert.Joint.gelu (x1 (ix3 (0 : Fin 1) u d)) * x3 (ix2 d v)) + x4 (ix2 (0 : Fin 1) v) := by
  unfold decBias
  rw [shapeCast_self, shapeCast_self]
  refine (addf_apply _ _ _).trans ?_
  rw [decMatmul_apply, broadcastTo_1b_ab_apply]
  refine congrArg (· + x4 (ix2 (0 : Fin 1) v)) (Finset.sum_congr rfl fun d _ => ?_)
  rw [geluV_apply, pay3_apply]

/-- The stored value: the encoder's projection along the decoder axis plus the decoder's along the encoder axis. -/
theorem pay1_eq (P : FVec Ideal S104x640 .f32) (x1 : Vec Ideal S1x101x512 .f32) (x3 : FVec Ideal S512x640 .f32) (x4 : FVec Ideal S1x640 .f32) :
    k0_pay1 (F := Ideal) P (k0_pay3 x1) (k0_pay4 x1) (Scalar.ofBits .f32 0x3F000000#32) x3 x4
      = shapeCast S1x104x101x640
          (addf (broadcastTo S104x101x640 (shapeCast S104x1x640 P shapeCasts_S104x640_S104x1x640) broadcasts_S104x1x640_S104x101x640)
            (broadcastTo S104x101x640 (shapeCast S1x101x640 (decBias x1 x3 x4) shapeCasts_S101x640_S1x101x640) broadcasts_S1x101x640_S104x101x640))
          shapeCasts_S104x101x640_S1x104x101x640 := rfl

/-- The stored value at (0, r, u, v). -/
theorem pay1_apply (P : FVec Ideal S104x640 .f32) (x1 : Vec Ideal S1x101x512 .f32) (x3 : FVec Ideal S512x640 .f32) (x4 : FVec Ideal S1x640 .f32)
    (r : Fin 104) (u : Fin 101) (v : Fin 640) :
    k0_pay1 (F := Ideal) P (k0_pay3 x1) (k0_pay4 x1) (Scalar.ofBits .f32 0x3F000000#32) x3 x4 (ix4 (0 : Fin 1) r u v)
      = P (ix2 r v) + decBias x1 x3 x4 (ix2 u v) := by
  refine (congrFun (pay1_eq P x1 x3 x4) (ix4 (0 : Fin 1) r u v)).trans ?_
  refine (shapeCast_abc_1abc_apply _ _ (0 : Fin 1) r u v).trans ?_
  refine (addf_apply _ _ _).trans ?_
  rw [broadcastTo_rows_apply, shapeCast_rows_apply, broadcastTo_steps_apply, shapeCast_ab_1ab_apply]

theorem stored_apply (i : grid0.Coords) (x0 : Vec Ideal S1x104x512 .f32) (x1 : Vec Ideal S1x101x512 .f32)
    (x2 x3 : Vec Ideal S512x640 .f32) (x4 : Vec Ideal S1x640 .f32)
    (r : Fin 104) (u : Fin 101) (v : Fin 640) (hr : (i 1).val * 104 + r.val < 300) :
    k0_pay1 (F := Ideal) (k0_pay2 i x0 x2) (k0_pay3 x1) (k0_pay4 x1) (Scalar.ofBits .f32 0x3F000000#32) x3 x4 (ix4 (0 : Fin 1) r u v)
      = (∑ d : Fin 512, Cert.Joint.gelu (x0 (ix3 (0 : Fin 1) r d)) * x2 (ix2 d v))
        + ((∑ d : Fin 512, Cert.Joint.gelu (x1 (ix3 (0 : Fin 1) u d)) * x3 (ix2 d v)) + x4 (ix2 (0 : Fin 1) v)) := by
  rw [pay1_apply, pay2_apply i x0 x2 r v hr, decBias_apply]

end Cert.KernelIdeal.Pay

end
-- ==== Proof.HostPrefix.lean ====
import proofs.«429003_j34196529611142_4_alg».proof.Proof.Gen.KernelIdeal.Frame
import proofs.«429003_j34196529611142_4_alg».proof.Proof.Spec
import Idealize.ShloMosaic.Lib.Pipeline.Value
import Idealize.ShloMosaic.Lib.ValueIdx
import Idealize.ShloMosaic.Lib.StableHlo.Run

noncomputable section

namespace Cert.KernelIdeal.HostPre

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-- The transposed first half of the weight, as the term of the two host operations that write it. -/
theorem V_v2_eq (c : Dev nD) :
    (Gen.V m c main_v2 : S512x640.Idx → Elt F .f32)
      = transpose S512x640 [1, 0]
          (extractStridedSlice S640x512 ![0, 0] (m ((c : Thread nD τ).loc main_arg2) : S640x1024.Idx → Elt F .f32)
            slices_S640x1024_S640x512_0_0)
          transposes_S640x512_S512x640_1_0 := by
  dsimp only [Gen.V, Gen.hostOps0]
  after_results

/-- The transposed second half of the weight, as the term of the two host operations that write it. -/
theorem V_v3_eq (c : Dev nD) :
    (Gen.V m c main_v3 : S512x640.Idx → Elt F .f32)
      = transpose S512x640 [1, 0]
          (extractStridedSlice S640x512 ![0, 512] (m ((c : Thread nD τ).loc main_arg2) : S640x1024.Idx → Elt F .f32)
            slices_S640x1024_S640x512_0_512)
          transposes_S640x512_S512x640_1_0 := by
  dsimp only [Gen.V, Gen.hostOps0]
  after_results

/-- The bias as a one-row matrix, as the term of the reshape that writes it. -/
theorem V_v4_eq (c : Dev nD) :
    (Gen.V m c main_v4 : S1x640.Idx → Elt F .f32)
      = shapeCast S1x640 (m ((c : Thread nD τ).loc main_arg3) : S640.Idx → Elt F .f32) shapeCasts_S640_S1x640 := by
  dsimp only [Gen.V, Gen.hostOps0]
  after_results
  rfl

theorem V_v2_apply (c : Dev nD) (d : Fin 512) (v : Fin 640) :
    (Gen.V m c main_v2 : S512x640.Idx → Elt F .f32) (ix2 d v) = (m ((c : Thread nD τ).loc main_arg2) : S640x1024.Idx → Elt F .f32) (ix2 v (Cert.Joint.lo d)) := by
  refine (congrFun (V_v2_eq m c) (ix2 d v)).trans ?_
  -- the transpose reads row d, column v of the result at row v, column d of the half
  refine (transpose_apply [1, 0] _ transposes_S640x512_S512x640_1_0 (ix2 d v) (ix2 v d) ?_).trans ?_
  · intro b
    match b with
    | ⟨0, _⟩ => rfl
    | ⟨1, _⟩ => rfl
  -- the first half's column d is the weight's column d
  refine extractStridedSlice_apply ![0, 0] _ slices_S640x1024_S640x512_0_0 (ix2 v d) (ix2 v (Cert.Joint.lo d)) ?_
  intro a
  match a with
  | ⟨0, _⟩ => show v.val = 0 + v.val; omega
  | ⟨1, _⟩ => show d.val = 0 + d.val; omega

theorem V_v3_apply (c : Dev nD) (d : Fin 512) (v : Fin 640) :
    (Gen.V m c main_v3 : S512x640.Idx → Elt F .f32) (ix2 d v) = (m ((c : Thread nD τ).loc main_arg2) : S640x1024.Idx → Elt F .f32) (ix2 v (Cert.Joint.hi d)) := by
  refine (congrFun (V_v3_eq m c) (ix2 d v)).trans ?_
  -- the transpose reads row d, column v of the result at row v, column d of the half
  refine (transpose_apply [1, 0] _ transposes_S640x512_S512x640_1_0 (ix2 d v) (ix2 v d) ?_).trans ?_
  · intro b
    match b with
    | ⟨0, _⟩ => rfl
    | ⟨1, _⟩ => rfl
  -- the second half's column d is the weight's column 512 + d
  refine extractStridedSlice_apply ![0, 512] _ slices_S640x1024_S640x512_0_512 (ix2 v d) (ix2 v (Cert.Joint.hi d)) ?_
  intro a
  match a with
  | ⟨0, _⟩ => show v.val = 0 + v.val; omega
  | ⟨1, _⟩ => show 512 + d.val = 512 + d.val; rfl

theorem V_v4_apply (c : Dev nD) (v : Fin 640) :
    (Gen.V m c main_v4 : S1x640.Idx → Elt F .f32) (ix2 (0 : Fin 1) v) = (m ((c : Thread nD τ).loc main_arg3) : S640.Idx → Elt F .f32) (ix1 v) := by
  refine (congrFun (V_v4_eq m c) (ix2 (0 : Fin 1) v)).trans ?_
  -- row 0, column v of the one-row matrix sits at row-major position v, the position of entry v of the vector
  refine shapeCast_apply _ shapeCasts_S640_S1x640 (ix2 (0 : Fin 1) v) (ix1 v) ?_
  rw [Shape.rowMajor_val_two, Shape.rowMajor_val_one]
  show v.val = 0 * 640 + v.val
  omega

end Cert.KernelIdeal.HostPre

end
-- ==== Proof.JointValue.lean ====
/-
  The result array of the joint kernel at the exact instance, as ONE function of the four argument arrays.

  At grid point (b, ti) the body stores, at row r of its block, encoder frame 104·ti + r's projection plus every
  decoder step's projection; the write-back copies the rows with 104·ti + r < 300 into the result array at
  batch entry b, frames 104·ti + r.  The encoder block's row r is the encoder array's frame 104·ti + r; the
  decoder block is batch entry b of the decoder array; the two weight blocks are the transposed halves of the
  weight, so their entry (d, v) is the weight's entry (v, d) and (v, 512 + d); the bias block's entry (0, v)
  is the bias's entry v.  Hence what a point writes back is that point's block of the specification's joint
  output, and the twelve blocks tile the array: batch entry b, frame f lies in the block of point
  (b, f / 104).
-/
import proofs.«429003_j34196529611142_4_alg».proof.Proof.BodyIdeal
import proofs.«429003_j34196529611142_4_alg».proof.Proof.KernelPay
import proofs.«429003_j34196529611142_4_alg».proof.Proof.HostPrefix
import proofs.«429003_j34196529611142_4_alg».proof.Proof.Spec

set_option maxRecDepth 16384

noncomputable section

namespace Cert.KernelIdeal.JointValue

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The four argument arrays on core c. -/
abbrev encA (c : Dev nD) : S4x300x512.Idx → EReal := m ((c : Thread nD τ).loc main_arg0)
abbrev decA (c : Dev nD) : S4x101x512.Idx → EReal := m ((c : Thread nD τ).loc main_arg1)
abbrev wA (c : Dev nD) : S640x1024.Idx → EReal := m ((c : Thread nD τ).loc main_arg2)
abbrev bA (c : Dev nD) : S640.Idx → EReal := m ((c : Thread nD τ).loc main_arg3)

/-- The joint output of the argument arrays on core c. -/
def G (c : Dev nD) : S4x300x101x640.Idx → EReal := Cert.Joint.joint (encA m c) (decA m c) (wA m c) (bA m c)

/-! ## The printed index maps and cuts, decided over the twelve points -/

theorem idx_facts : ∀ t : Fin cfg0.N,
    win0_0.index t (0 : Fin 3) = (grid0.coords t 0).val ∧ win0_0.index t (1 : Fin 3) = (grid0.coords t 1).val ∧ win0_0.index t (2 : Fin 3) = 0
    ∧ win0_1.index t (0 : Fin 3) = (grid0.coords t 0).val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 4) = (grid0.coords t 0).val ∧ win0_5.index t (1 : Fin 4) = (grid0.coords t 1).val
    ∧ win0_5.index t (2 : Fin 4) = 0 ∧ win0_5.index t (3 : Fin 4) = 0 :=
  (by decide +kernel : ∀ t : Fin grid0.N, _)

/-- The part of the result's block a write-back moves: the first min 104 (300 - 104·ti) rows, whole otherwise. -/
theorem xsize5 : ∀ t : Fin grid0.N, win0_5.xsize (grid0.coords t) (0 : Fin 4) = 1
    ∧ win0_5.xsize (grid0.coords t) (1 : Fin 4) = min 104 (300 - 104 * (grid0.coords t 1).val)
    ∧ win0_5.xsize (grid0.coords t) (2 : Fin 4) = 101 ∧ win0_5.xsize (grid0.coords t) (3 : Fin 4) = 640 := by
  decide +kernel

theorem coords_lt : ∀ t : Fin grid0.N, (grid0.coords t 0).val < 4 ∧ (grid0.coords t 1).val < 3 := by decide +kernel

/-- Every (batch entry, tile) is some point's. -/
theorem idx_onto : ∀ (b : Fin 4) (q : Fin 3), ∃ t : Fin cfg0.N, (grid0.coords t 0).val = b.val ∧ (grid0.coords t 1).val = q.val :=
  (by decide +kernel : ∀ (b : Fin 4) (q : Fin 3), ∃ t : Fin grid0.N, (grid0.coords t 0).val = b.val ∧ (grid0.coords t 1).val = q.val)

/-! ## The input blocks, read at an index -/

/-- The encoder's block at a point, at an index of its filled part, is the encoder array at batch entry b, frame 104·ti + row. -/
theorem iblk0_apply (c : Dev nD) (t : Fin cfg0.N) (y : (win0_0.xblock (grid0.coords t)).Idx) (k : S4x300x512.Idx)
    (h0 : (k 0).val = (grid0.coords t 0).val) (h1 : (k 1).val = (grid0.coords t 1).val * 104 + (y 1).val) (h2 : (k 2).val = (y 2).val) :
    iblk m c 0 t y = encA m c k := by
  obtain ⟨e0, e1, e2, -⟩ := idx_facts t
  obtain ⟨x0, x2, x1⟩ := xsize0 t
  have hy0 : (y 0).val < 1 := by
    have h : (y 0).val < win0_0.xsize (grid0.coords t) (0 : Fin 3) := (y 0).isLt
    rw [x0] at h; exact h
  show (V m c main_arg0 : S4x300x512.Idx → EReal) (((cfg0.win 0).blk t).view.emb y) = _
  rw [V_main_arg0]
  show encA m c (((cfg0.win 0).blk t).view.emb y) = encA m c k
  congr 1
  funext a; apply Fin.ext
  match a with
  | ⟨0, _⟩ => show win0_0.index t (0 : Fin 3) * 1 + 1 * (y 0).val = (k 0).val; omega
  | ⟨1, _⟩ => show win0_0.index t (1 : Fin 3) * 104 + 1 * (y 1).val = (k 1).val; omega
  | ⟨2, _⟩ => show win0_0.index t (2 : Fin 3) * 512 + 1 * (y 2).val = (k 2).val; omega

/-- The encoder's block filled out with zeros, at a row inside the sequence, is the encoder array's entry. -/
theorem encBlk_apply (c : Dev nD) (t : Fin cfg0.N) (r : Fin 104) (d : Fin 512) (hr : (grid0.coords t 1).val * 104 + r.val < 300)
    (k : S4x300x512.Idx) (h0 : (k 0).val = (grid0.coords t 0).val) (h1 : (k 1).val = (grid0.coords t 1).val * 104 + r.val) (h2 : (k 2).val = d.val) :
    encBlk m c t (ix3 (0 : Fin 1) r d) = encA m c k := by
  obtain ⟨x0, x2, x1⟩ := xsize0 t
  have hm : win0_0.moved (grid0.coords t) (ix3 (0 : Fin 1) r d) = true :=
    (win0_0.moved_iff _ _).mpr fun a => match a with
      | ⟨0, _⟩ => by show (0 : Nat) < win0_0.xsize (grid0.coords t) 0; rw [x0]; exact Nat.one_pos
      | ⟨1, _⟩ => by
        show r.val < win0_0.xsize (grid0.coords t) 1; rw [x1]
        have := r.isLt; omega
      | ⟨2, _⟩ => by show d.val < win0_0.xsize (grid0.coords t) 2; rw [x2]; exact d.isLt
  unfold encBlk Pipeline.Window.fill
  rw [dif_pos hm]
  exact iblk0_apply m c t _ k h0 h1 h2

/-- The decoder's block is batch entry b of the decoder array. -/
theorem iblk1_apply (c : Dev nD) (t : Fin cfg0.N) (y : S1x101x512.Idx) (k : S4x101x512.Idx)
    (h0 : (k 0).val = (grid0.coords t 0).val) (h1 : (k 1).val = (y 1).val) (h2 : (k 2).val = (y 2).val) :
    iblk m c 1 t y = decA m c k := by
  obtain ⟨-, -, -, e0, e1, e2, -⟩ := idx_facts t
  have hy0 : (y 0).val < 1 := (y 0).isLt
  show (V m c main_arg1 : S4x101x512.Idx → EReal) (((cfg0.win 1).blk t).view.emb y) = _
  rw [V_main_arg1]
  show decA m c (((cfg0.win 1).blk t).view.emb y) = decA m c k
  congr 1
  funext a; apply Fin.ext
  match a with
  | ⟨0, _⟩ => show win0_1.index t (0 : Fin 3) * 1 + 1 * (y 0).val = (k 0).val; omega
  | ⟨1, _⟩ => show win0_1.index t (1 : Fin 3) * 101 + 1 * (y 1).val = (k 1).val; omega
  | ⟨2, _⟩ => show win0_1.index t (2 : Fin 3) * 512 + 1 * (y 2).val = (k 2).val; omega

/-- The two weight blocks and the bias block are their whole arrays. -/
theorem iblk2_apply (c : Dev nD) (t : Fin cfg0.N) (y : S512x640.Idx) :
    iblk m c 2 t y = (V m c main_v2 : S512x640.Idx → EReal) y := by
  obtain ⟨-, -, -, -, -, -, e0, e1, -⟩ := idx_facts t
  show (V m c main_v2 : S512x640.Idx → EReal) (((cfg0.win 2).blk t).view.emb y) = _
  congr 1
  funext a; apply Fin.ext
  match a with
  | ⟨0, _⟩ => show win0_2.index t (0 : Fin 2) * 512 + 1 * (y 0).val = (y 0).val; omega
  | ⟨1, _⟩ => show win0_2.index t (1 : Fin 2) * 640 + 1 * (y 1).val = (y 1).val; omega

theorem iblk3_apply (c : Dev nD) (t : Fin cfg0.N) (y : S512x640.Idx) :
    iblk m c 3 t y = (V m c main_v3 : S512x640.Idx → EReal) y := by
  obtain ⟨-, -, -, -, -, -, -, -, e0, e1, -⟩ := idx_facts t
  show (V m c main_v3 : S512x640.Idx → EReal) (((cfg0.win 3).blk t).view.emb y) = _
  congr 1
  funext a; apply Fin.ext
  match a with
  | ⟨0, _⟩ => show win0_3.index t (0 : Fin 2) * 512 + 1 * (y 0).val = (y 0).val; omega
  | ⟨1, _⟩ => show win0_3.index t (1 : Fin 2) * 640 + 1 * (y 1).val = (y 1).val; omega

theorem iblk4_apply (c : Dev nD) (t : Fin cfg0.N) (y : S1x640.Idx) :
    iblk m c 4 t y = (V m c main_v4 : S1x640.Idx → EReal) y := by
  obtain ⟨-, -, -, -, -, -, -, -, -, -, e0, e1, -⟩ := idx_facts t
  show (V m c main_v4 : S1x640.Idx → EReal) (((cfg0.win 4).blk t).view.emb y) = _
  congr 1
  funext a; apply Fin.ext
  match a with
  | ⟨0, _⟩ => show win0_4.index t (0 : Fin 2) * 1 + 1 * (y 0).val = (y 0).val; omega
  | ⟨1, _⟩ => show win0_4.index t (1 : Fin 2) * 640 + 1 * (y 1).val = (y 1).val; omega

/-! ## What a point writes back -/

/-- The rows of the result's block that point t writes back are block t of the joint output. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5]
  funext y
  obtain ⟨x0, x1, x2, x3⟩ := xsize5 t
  obtain ⟨-, -, -, -, -, -, -, -, -, -, -, -, e0, e1, e2, e3⟩ := idx_facts t
  obtain ⟨cb, ct⟩ := coords_lt t
  have hy0 : (y 0).val < 1 := by
    have h : (y 0).val < win0_5.xsize (grid0.coords t) (0 : Fin 4) := (y 0).isLt
    rw [x0] at h; exact h
  have hy1 : (y 1).val < min 104 (300 - 104 * (grid0.coords t 1).val) := by
    have h : (y 1).val < win0_5.xsize (grid0.coords t) (1 : Fin 4) := (y 1).isLt
    rw [x1] at h; exact h
  have hy2 : (y 2).val < 101 := by
    have h : (y 2).val < win0_5.xsize (grid0.coords t) (2 : Fin 4) := (y 2).isLt
    rw [x2] at h; exact h
  have hy3 : (y 3).val < 640 := by
    have h : (y 3).val < win0_5.xsize (grid0.coords t) (3 : Fin 4) := (y 3).isLt
    rw [x3] at h; exact h
  have hr : (grid0.coords t 1).val * 104 + (y 1).val < 300 := by omega
  -- the block's index of the written-back index, and the array's
  have hx : (cfg0.win 5).xinj (grid0.coords t) y
      = ix4 (0 : Fin 1) (⟨(y 1).val, by omega⟩ : Fin 104) (⟨(y 2).val, hy2⟩ : Fin 101) (⟨(y 3).val, hy3⟩ : Fin 640) := by
    funext a; apply Fin.ext
    match a with
    | ⟨0, _⟩ => show (y 0).val = 0; omega
    | ⟨1, _⟩ => rfl
    | ⟨2, _⟩ => rfl
    | ⟨3, _⟩ => rfl
  have hk : ((cfg0.win 5).blk t).view.emb y
      = ix4 (⟨(grid0.coords t 0).val, cb⟩ : Fin 4) (⟨(grid0.coords t 1).val * 104 + (y 1).val, hr⟩ : Fin 300) (⟨(y 2).val, hy2⟩ : Fin 101) (⟨(y 3).val, hy3⟩ : Fin 640) := by
    funext a; apply Fin.ext
    match a with
    | ⟨0, _⟩ => show win0_5.index t (0 : Fin 4) * 1 + 1 * (y 0).val = (grid0.coords t 0).val; omega
    | ⟨1, _⟩ => show win0_5.index t (1 : Fin 4) * 104 + 1 * (y 1).val = (grid0.coords t 1).val * 104 + (y 1).val; omega
    | ⟨2, _⟩ => show win0_5.index t (2 : Fin 4) * 101 + 1 * (y 2).val = (y 2).val; omega
    | ⟨3, _⟩ => show win0_5.index t (3 : Fin 4) * 640 + 1 * (y 3).val = (y 3).val; omega
  show outBlk m c t ((cfg0.win 5).xinj (grid0.coords t) y) = G m c (((cfg0.win 5).blk t).view.emb y)
  rw [hx, hk]
  unfold outBlk stored G
  rw [Cert.KernelIdeal.Pay.stored_apply (grid0.coords t) _ _ _ _ _ _ _ _ hr, Cert.Joint.joint_ix4]
  unfold Cert.Joint.jointAt Cert.Joint.encProj Cert.Joint.decProj
  refine congrArg₂ (fun a b : EReal => a + b) (Finset.sum_congr rfl fun d _ => ?_)
    (congrArg₂ (fun a b : EReal => a + b) (Finset.sum_congr rfl fun d _ => ?_) ?_)
  · exact congrArg₂ (fun a b : EReal => a * b)
      (congrArg Cert.Joint.gelu (encBlk_apply m c t _ d hr
        (ix3 (⟨(grid0.coords t 0).val, cb⟩ : Fin 4) (⟨(grid0.coords t 1).val * 104 + (y 1).val, hr⟩ : Fin 300) d) rfl rfl rfl))
      ((iblk2_apply m c t _).trans (Cert.KernelIdeal.HostPre.V_v2_apply m c d _))
  · exact congrArg₂ (fun a b : EReal => a * b)
      (congrArg Cert.Joint.gelu (iblk1_apply m c t _
        (ix3 (⟨(grid0.coords t 0).val, cb⟩ : Fin 4) (⟨(y 2).val, hy2⟩ : Fin 101) d) rfl rfl rfl))
      ((iblk3_apply m c t _).trans (Cert.KernelIdeal.HostPre.V_v3_apply m c d _))
  · exact (iblk4_apply m c t _).trans (Cert.KernelIdeal.HostPre.V_v4_apply m c _)

/-! ## The blocks tile the result array -/

theorem mem_blk (t : Fin cfg0.N) (i : S4x300x101x640.Idx) :
    i ∈ ((cfg0.win 5).blk t).view.set ↔ ∀ a : Fin 4, win0_5.index t a * S1x104x101x640.size a ≤ (i a).val
      ∧ (i a).val < win0_5.index t a * S1x104x101x640.size a + win0_5.xsize (grid0.coords t) a := by
  show i ∈ ((View.whole main_v5).slice (win0_5.rect t)).set ↔ _
  rw [View.set_slice_whole, Rect.mem_set_unit]
  exact Iff.rfl

/-- Batch entry b, frame f lies in the block of the point (b, f / 104). -/
theorem cover (i : S4x300x101x640.Idx) :
    ∃ t : Fin cfg0.N, (cfg0.win 5).flush t = true ∧ i ∈ ((cfg0.win 5).blk t).view.set := by
  have hi0 : (i 0).val < 4 := (i 0).isLt
  have hi1 : (i 1).val < 300 := (i 1).isLt
  have hi2 : (i 2).val < 101 := (i 2).isLt
  have hi3 : (i 3).val < 640 := (i 3).isLt
  obtain ⟨t, hb, hq⟩ := idx_onto ⟨(i 0).val, hi0⟩ ⟨(i 1).val / 104, by omega⟩
  have hb' : (grid0.coords t 0).val = (i 0).val := hb
  have hq' : (grid0.coords t 1).val = (i 1).val / 104 := hq
  obtain ⟨x0, x1, x2, x3⟩ := xsize5 t
  obtain ⟨-, -, -, -, -, -, -, -, -, -, -, -, e0, e1, e2, e3⟩ := idx_facts t
  refine ⟨t, flush0_5 t, ?_⟩
  rw [mem_blk]
  intro a
  match a with
  | ⟨0, _⟩ =>
    show win0_5.index t (0 : Fin 4) * 1 ≤ (i 0).val ∧ (i 0).val < win0_5.index t (0 : Fin 4) * 1 + win0_5.xsize (grid0.coords t) (0 : Fin 4)
    rw [x0]; omega
  | ⟨1, _⟩ =>
    show win0_5.index t (1 : Fin 4) * 104 ≤ (i 1).val ∧ (i 1).val < win0_5.index t (1 : Fin 4) * 104 + win0_5.xsize (grid0.coords t) (1 : Fin 4)
    rw [x1]; omega
  | ⟨2, _⟩ =>
    show win0_5.index t (2 : Fin 4) * 101 ≤ (i 2).val ∧ (i 2).val < win0_5.index t (2 : Fin 4) * 101 + win0_5.xsize (grid0.coords t) (2 : Fin 4)
    rw [x2]; omega
  | ⟨3, _⟩ =>
    show win0_5.index t (3 : Fin 4) * 640 ≤ (i 3).val ∧ (i 3).val < win0_5.index t (3 : Fin 4) * 640 + win0_5.xsize (grid0.coords t) (3 : Fin 4)
    rw [x3]; omega

/-- The result array after the run is the joint output of the argument arrays. -/
theorem final (c : Dev nD) : (dats m 0 c).arrAt 5 cfg0.N = G m c :=
  (dats m 0 c).arrAt_eq_of_cover 5 (G m c) (fun t _ => flushed_eq m c t) (cover)

/-! ## The run, read -/

/-- Every weakly fair execution terminates with the result array at the joint output of the arguments, the arguments unchanged. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 5).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.JointValue

end
-- ==== Proof.RefValue.lean ====
import proofs.«429003_j34196529611142_4_alg».proof.Proof.Gen.ReferenceIdeal.Run
import proofs.«429003_j34196529611142_4_alg».proof.Proof.Gen.ReferenceIdeal.Read
import proofs.«429003_j34196529611142_4_alg».proof.Proof.Spec

noncomputable section

namespace Cert.ReferenceIdeal.RefValue

open Cert.ReferenceIdeal Cert.ReferenceIdeal.Gen Idealize.ShloMosaic Idealize.ShloMosaic.ValueIdx

/-- The concatenated stage at coordinates is the specification's feature row: below 512 on the joined axis the
    encoder's row (broadcast along the decoder axis), from 512 on the decoder's (broadcast along the encoder axis). -/
theorem v4_cat (x0 : (⟨S4x300x512, .f32⟩ : BufTy).Contents (Elt Ideal)) (x1 : (⟨S4x101x512, .f32⟩ : BufTy).Contents (Elt Ideal))
    (b : Fin 4) (t : Fin 300) (u : Fin 101) (k : Fin 1024) :
    Cert.ReferenceIdeal.Read.val_main_v4 (F := Ideal) x0 x1 (ix4 b t u k) = Cert.Joint.cat x0 x1 b t u k := by
  unfold Cert.ReferenceIdeal.Read.val_main_v4 Cert.Joint.cat
  by_cases hk : k.val < 512
  · rw [dif_pos hk]
    rw [concatenate_pair_apply_left (t := S4x300x101x1024) (s₁ := S4x300x101x512) (s₂ := S4x300x101x512) (3 : Fin 4) _ _ _
      (ix4 b t u k) rfl (ix4 b t u (⟨k.val, hk⟩ : Fin 512))
      (fun a => by
        match a with
        | ⟨0, _⟩ => rfl
        | ⟨1, _⟩ => rfl
        | ⟨2, _⟩ => rfl
        | ⟨3, _⟩ => rfl)]
    rw [Cert.ReferenceIdeal.Read.val_main_v1_apply, Cert.ReferenceIdeal.Read.val_main_v0_apply]
    congr 1
    funext a
    match a with
    | ⟨0, _⟩ => rfl
    | ⟨1, _⟩ => rfl
    | ⟨2, _⟩ => rfl
  · rw [dif_neg hk]
    have hk2 : k.val - 512 < 512 := by have := k.isLt; omega
    rw [concatenate_pair_apply_right (t := S4x300x101x1024) (s₁ := S4x300x101x512) (s₂ := S4x300x101x512) (3 : Fin 4) _ _ _
      (ix4 b t u k) rfl rfl (ix4 b t u (⟨k.val - 512, hk2⟩ : Fin 512))
      (fun a ha => by
        match a with
        | ⟨0, _⟩ => rfl
        | ⟨1, _⟩ => rfl
        | ⟨2, _⟩ => rfl
        | ⟨3, _⟩ => exact absurd rfl ha)
      (by show k.val - 512 + 512 = k.val; omega)]
    rw [Cert.ReferenceIdeal.Read.val_main_v3_apply, Cert.ReferenceIdeal.Read.val_main_v2_apply]
    congr 1
    funext a
    match a with
    | ⟨0, _⟩ => rfl
    | ⟨1, _⟩ => rfl
    | ⟨2, _⟩ => rfl

/-- The elementwise stages after the concatenation are the tanh GELU of the concatenated value, the reference's
    cube associated to the left. -/
theorem v17_gelu (x0 : (⟨S4x300x512, .f32⟩ : BufTy).Contents (Elt Ideal)) (x1 : (⟨S4x101x512, .f32⟩ : BufTy).Contents (Elt Ideal))
    (i : S4x300x101x1024.Idx) :
    Cert.ReferenceIdeal.Read.val_main_v17 (F := Ideal) x0 x1 i
      = Cert.Joint.gelu (Cert.ReferenceIdeal.Read.val_main_v4 (F := Ideal) x0 x1 i) := by
  rw [← Cert.Joint.gelu_cube_left]
  rw [Cert.ReferenceIdeal.Read.val_main_v17_apply, Cert.ReferenceIdeal.Read.val_main_v16_apply,
    Cert.ReferenceIdeal.Read.val_main_v15_apply, Cert.ReferenceIdeal.Read.val_main_cst_2_apply,
    Cert.ReferenceIdeal.Read.val_main_v14_apply, Cert.ReferenceIdeal.Read.val_main_v13_apply,
    Cert.ReferenceIdeal.Read.val_main_cst_1_apply, Cert.ReferenceIdeal.Read.val_main_v12_apply,
    Cert.ReferenceIdeal.Read.val_main_v11_apply, Cert.ReferenceIdeal.Read.val_main_v10_apply,
    Cert.ReferenceIdeal.Read.val_main_cst_0_apply, Cert.ReferenceIdeal.Read.val_main_v9_apply,
    Cert.ReferenceIdeal.Read.val_main_v8_apply, Cert.ReferenceIdeal.Read.val_main_v7_apply,
    Cert.ReferenceIdeal.Read.val_main_cst_apply, Cert.ReferenceIdeal.Read.val_main_v6_apply,
    Cert.ReferenceIdeal.Read.val_main_v5_apply]
  simp only [Ideal.mulf_def, Ideal.addf_def, Ideal.hostUnary_tanh_def, Ideal.ofBits_def]

theorem ref_joint (x0 : (⟨S4x300x512, .f32⟩ : BufTy).Contents (Elt Ideal)) (x1 : (⟨S4x101x512, .f32⟩ : BufTy).Contents (Elt Ideal))
    (x2 : (⟨S640x1024, .f32⟩ : BufTy).Contents (Elt Ideal)) (x3 : (⟨S640, .f32⟩ : BufTy).Contents (Elt Ideal)) :
    Cert.ReferenceIdeal.Read.val_main_v21 (F := Ideal) x0 x1 x2 x3 = Cert.Joint.joint x0 x1 x2 x3 := by
  funext j
  obtain ⟨b, t, u, v, rfl⟩ : ∃ (b : Fin 4) (t : Fin 300) (u : Fin 101) (v : Fin 640), j = ix4 b t u v :=
    ⟨j 0, j 1, j 2, j 3, eq_ix4 j⟩
  rw [Cert.Joint.joint_ix4, ← Cert.Joint.concat_form]
  rw [Cert.ReferenceIdeal.Read.val_main_v21_apply, Cert.ReferenceIdeal.Read.val_main_v18_apply,
    Cert.ReferenceIdeal.Read.val_main_v20_apply, Cert.ReferenceIdeal.Read.val_main_v19_apply, Ideal.addf_def]
  have eb : Cert.ReferenceIdeal.Read.idx_main_v19 (Cert.ReferenceIdeal.Read.idx_main_v20 (ix4 b t u v)) = ix1 v := by
    funext a
    match a with
    | ⟨0, _⟩ => rfl
  rw [eb]
  congr 1
  refine Finset.sum_congr rfl fun k _ => ?_
  have el : Cert.ReferenceIdeal.Read.lidx_main_v18 (ix4 b t u v) k = ix4 b t u k := by
    funext a
    match a with
    | ⟨0, _⟩ => rfl
    | ⟨1, _⟩ => rfl
    | ⟨2, _⟩ => rfl
    | ⟨3, _⟩ => rfl
  have er : Cert.ReferenceIdeal.Read.ridx_main_v18 (ix4 b t u v) k = ix2 v k := by
    funext a
    match a with
    | ⟨0, _⟩ => rfl
    | ⟨1, _⟩ => rfl
  rw [el, er, v17_gelu, v4_cat]

end Cert.ReferenceIdeal.RefValue

end
-- ==== Proof.lean ====
/-
  The joint network of a transducer: out[b, t, u, v] = Σ_k gelu(cat(enc[b, t, :], dec[b, u, :])[k]) · W[v, k] + bias[v].

  The reference concatenates the encoder and decoder feature rows and contracts once over the 1024 features.  The
  kernel never forms the concatenation: the GELU is elementwise and the contraction is a sum over features, so the
  sum splits at feature 512 into an encoder part Σ_{d<512} gelu(enc[b, t, d]) · W[v, d], which depends on (b, t, v)
  only, and a decoder part Σ_{d<512} gelu(dec[b, u, d]) · W[v, 512 + d], which depends on (b, u, v) only; the kernel
  computes the two parts as two matrix products per grid point, folds the bias into the decoder part, and stores their
  broadcast sum.  On the extended reals a sum over 1024 indices is the sum over its two halves and addition is
  associative, so the two programs agree with no finiteness assumption; the two GELUs differ only in how the cube is
  associated, and multiplication commutes.

  The kernel's grid tiles the 300 encoder frames by 104, so the last tile overhangs; the kernel zeroes the rows past
  the sequence's end before using them, which makes its stored block a function of the rows inside the sequence alone
  (Proof/BodyIdeal.lean and its word-level twin), and the write-backs, cut at the array's end, tile the result
  (Proof/JointValue.lean).  The reference's value is read in Proof/RefValue.lean; the specification both are compared
  with is Proof/Spec.lean.
-/
import proofs.«429003_j34196529611142_4_alg».proof.Defs
import proofs.«429003_j34196529611142_4_alg».proof.Proof.Gen.Kernel
import proofs.«429003_j34196529611142_4_alg».proof.Proof.Gen.KernelIdeal
import proofs.«429003_j34196529611142_4_alg».proof.Proof.Gen.ReferenceIdeal
import proofs.«429003_j34196529611142_4_alg».proof.Proof.Gen.Pre_finite_inputs
import proofs.«429003_j34196529611142_4_alg».proof.Proof.Gen.ReferenceIdeal.Run
import proofs.«429003_j34196529611142_4_alg».proof.Proof.Gen.ReferenceIdeal.Read
import proofs.«429003_j34196529611142_4_alg».proof.Proof.BodyBits
import proofs.«429003_j34196529611142_4_alg».proof.Proof.BodyIdeal
import proofs.«429003_j34196529611142_4_alg».proof.Proof.JointValue
import proofs.«429003_j34196529611142_4_alg».proof.Proof.RefValue
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_k : Cert.frame_Kernel := fun m ρ _ => Cert.Kernel.Body.frame (F := Bits) m ρ

/-- So does the kernel read on the extended reals. -/
theorem frame_ki : Cert.frame_KernelIdeal := fun m ρ _ => Cert.KernelIdeal.Body.frame (F := Ideal) m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the joint output of the (agreeing) argument arrays. -/
theorem algebraic : Cert.algebraic_KernelIdeal_ReferenceIdeal := by
  intro m ρ m' ρ' _ hagree
  refine ⟨fun c => Cert.KernelIdeal.JointValue.G m c, Cert.KernelIdeal.JointValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v21_eq _ _ _ _).trans ((Cert.ReferenceIdeal.RefValue.ref_joint _ _ _ _).trans ?_)
  rw [(hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
